-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x64 : Shape := ⟨3, ![4, 50000, 64]⟩
abbrev S800000 : Shape := ⟨1, ![800000]⟩
abbrev S4x64x64 : Shape := ⟨3, ![4, 64, 64]⟩
abbrev S64 : Shape := ⟨1, ![64]⟩
abbrev S_ : Shape := ⟨0, ![]⟩

class Facts : Prop where
  bcast_S_S4x50000x64 : S_.BroadcastsInDim S4x50000x64 (![] : Fin 0 → Fin S4x50000x64.rank)
  reducesTo_S4x50000x64_S_d0_1_2 : S4x50000x64.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x50000x64 .f32) (main_arg1 : IVec S800000 32) (main_arg2 : IVec S800000 32) (main_arg3 : FVec F S800000 .f32) (main_arg4 : FVec F S4x64x64 .f32) (main_arg5 : FVec F S64 .f32) : IVec S_ 1 :=
  let main_v0 : FVec F S4x50000x64 .f32 := Host.absf main_arg0
  let main_cst : FVec F S_ .f32 := constant S_ .f32 0x7F800000#32
  let main_v1 : FVec F S4x50000x64 .f32 := broadcastInDim S4x50000x64 ![] bcast_S_S4x50000x64 main_cst
  let main_v2 : IVec S4x50000x64 1 := cmpf .olt main_v0 main_v1
  let main_c : IVec S_ 1 := constantI S_ 1 1#1
  let main_v3 : IVec S_ 1 := (fun x v => Host.reduce IntOp.andi x v reducesTo_S4x50000x64_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S4x64x64 .f32 := Host.absf main_arg4
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x50000x64 : Shape := ⟨3, ![4, 50000, 64]⟩
abbrev S800000 : Shape := ⟨1, ![800000]⟩
abbrev S4x64x64 : Shape := ⟨3, ![4, 64, 64]⟩
abbrev S64 : Shape := ⟨1, ![64]⟩
abbrev S800000x1 : Shape := ⟨2, ![800000, 1]⟩
abbrev S_ : Shape := ⟨0, ![]⟩
abbrev S4x800000x64 : Shape := ⟨3, ![4, 800000, 64]⟩
abbrev S1x800000x1 : Shape := ⟨3, ![1, 800000, 1]⟩
abbrev S50000x64 : Shape := ⟨2, ![50000, 64]⟩
abbrev S1x4x50000x64 : Shape := ⟨4, ![1, 4, 50000, 64]⟩
abbrev S4x4x50000x64 : Shape := ⟨4, ![4, 4, 50000, 64]⟩
abbrev S4x200000x64 : Shape := ⟨3, ![4, 200000, 64]⟩
abbrev S1x64 : Shape := ⟨2, ![1, 64]⟩
abbrev S200000x64 : Shape := ⟨2, ![200000, 64]⟩
abbrev S4x4000x64 : Shape := ⟨3, ![4, 4000, 64]⟩
abbrev S4000x64 : Shape := ⟨2, ![4000, 64]⟩
abbrev S1x4000x64 : Shape := ⟨3, ![1, 4000, 64]⟩
abbrev S1x64x64 : Shape := ⟨3, ![1, 64, 64]⟩
abbrev S64x64 : Shape := ⟨2, ![64, 64]⟩

abbrev nBuf : Space → Nat
  | .hbm => 77
  | .vmem => 6
  | .smem => 0
  | _ => 0

abbrev bufTy : (tb : Table) → Fin (tcTables nBuf tb) → BufTy
  | .hbm, ⟨0, _⟩ => ⟨S4x50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S4x64x64, .f32⟩
  | .hbm, ⟨5, _⟩ => ⟨S64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S4x800000x64, .f32⟩
  | .hbm, ⟨16, _⟩ => ⟨S1x800000x1, .f32⟩
  | .hbm, ⟨17, _⟩ => ⟨S4x800000x64, .f32⟩
  | .hbm, ⟨18, _⟩ => ⟨S4x800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S4x50000x64, .f32⟩
  | .hbm, ⟨23, _⟩ => ⟨S4x50000x64, .f32⟩
  | .hbm, ⟨24, _⟩ => ⟨S800000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S4x800000x64, .f32⟩
  | .hbm, ⟨34, _⟩ => ⟨S1x800000x1, .f32⟩
  | .hbm, ⟨35, _⟩ => ⟨S4x800000x64, .f32⟩
  | .hbm, ⟨36, _⟩ => ⟨S4x800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S4x50000x64, .f32⟩
  | .hbm, ⟨41, _⟩ => ⟨S4x50000x64, .f32⟩
  | .hbm, ⟨42, _⟩ => ⟨S_, .f32⟩
  | .hbm, ⟨43, _⟩ => ⟨S4x50000x64, .f32⟩
  | .hbm, ⟨44, _⟩ => ⟨S4x50000x64, .f32⟩
  | .hbm, ⟨45, _⟩ => ⟨S4x50000x64, .f32⟩
  | .hbm, ⟨46, _⟩ => ⟨S800000x1, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S4x800000x64, .f32⟩
  | .hbm, ⟨56, _⟩ => ⟨S1x800000x1, .f32⟩
  | .hbm, ⟨57, _⟩ => ⟨S4x800000x64, .f32⟩
  | .hbm, ⟨58, _⟩ => ⟨S4x800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S4x50000x64, .f32⟩
  | .hbm, ⟨63, _⟩ => ⟨S4x50000x64, .f32⟩
  | .hbm, ⟨64, _⟩ => ⟨S_, .f32⟩
  | .hbm, ⟨65, _⟩ => ⟨S4x50000x64, .f32⟩
  | .hbm, ⟨66, _⟩ => ⟨S4x50000x64, .f32⟩
  | .hbm, ⟨67, _⟩ => ⟨S4x50000x64, .f32⟩
  | .hbm, ⟨68, _⟩ => ⟨S1x4x50000x64, .f32⟩
  | .hbm, ⟨69, _⟩ => ⟨S1x4x50000x64, .f32⟩
  | .hbm, ⟨70, _⟩ => ⟨S1x4x50000x64, .f32⟩
  | .hbm, ⟨71, _⟩ => ⟨S1x4x50000x64, .f32⟩
  | .hbm, ⟨72, _⟩ => ⟨S4x4x50000x64, .f32⟩
  | .hbm, ⟨73, _⟩ => ⟨S4x200000x64, .f32⟩
  | .hbm, ⟨74, _⟩ => ⟨S1x64, .f32⟩
  | .hbm, ⟨75, _⟩ => ⟨S200000x64, .f32⟩
  | .hbm, ⟨76, _⟩ => ⟨S4x50000x64, .f32⟩
  | .local _ .vmem, ⟨0, _⟩ => ⟨S4x4000x64, .f32⟩
  | .local _ .vmem, ⟨1, _⟩ => ⟨S4x4000x64, .f32⟩
  | .local _ .vmem, ⟨2, _⟩ => ⟨S4x64x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | _, _ => ⟨S4x50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S1x800000x1_1_2 : S800000x1.BroadcastsInDim S1x800000x1 (![1, 2] : Fin 2 → Fin S1x800000x1.rank)
  bcast_S1x800000x1_S4x800000x64_0_1_2 : S1x800000x1.BroadcastsInDim S4x800000x64 (![0, 1, 2] : Fin 3 → Fin S4x800000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  bcast_S_S4x50000x64 : S_.BroadcastsInDim S4x50000x64 (![] : Fin 0 → Fin S4x50000x64.rank)
  bcast_S4x50000x64_S1x4x50000x64_1_2_3 : S4x50000x64.BroadcastsInDim S1x4x50000x64 (![1, 2, 3] : Fin 3 → Fin S1x4x50000x64.rank)
  concatenates_S1x4x50000x64_S1x4x50000x64_S1x4x50000x64_S1x4x50000x64_S4x4x50000x64_d0 : Shape.Concatenates [S1x4x50000x64, S1x4x50000x64, S1x4x50000x64, S1x4x50000x64] S4x4x50000x64 0
  shapeCasts_S4x4x50000x64_S4x200000x64 : S4x4x50000x64.ShapeCasts S4x200000x64
  shapeCasts_S64_S1x64 : S64.ShapeCasts S1x64
  inb_S4x4000x64_S1x4000x64_0_0_0 : ∀ a, (![0, 0, 0] : Fin 3 → Nat) a + S1x4000x64.size a ≤ S4x4000x64.size a
  h_S1x4000x64 : 0 < S1x4000x64.numel
  shapeCasts_S1x4000x64_S4000x64 : S1x4000x64.ShapeCasts S4000x64
  bitsLt_bf16_f32 : FTy.bits .bf16 < FTy.bits .f32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x4000x64_S1x4000x64_1_0_0 : ∀ a, (![1, 0, 0] : Fin 3 → Nat) a + S1x4000x64.size a ≤ S4x4000x64.size a
  inb_S4x64x64_S1x64x64_1_0_0 : ∀ a, (![1, 0, 0] : Fin 3 → Nat) a + S1x64x64.size a ≤ S4x64x64.size a
  inb_S4x4000x64_S1x4000x64_2_0_0 : ∀ a, (![2, 0, 0] : Fin 3 → Nat) a + S1x4000x64.size a ≤ S4x4000x64.size a
  inb_S4x64x64_S1x64x64_2_0_0 : ∀ a, (![2, 0, 0] : Fin 3 → Nat) a + S1x64x64.size a ≤ S4x64x64.size a
  inb_S4x4000x64_S1x4000x64_3_0_0 : ∀ a, (![3, 0, 0] : Fin 3 → Nat) a + S1x4000x64.size a ≤ S4x4000x64.size a
  inb_S4x64x64_S1x64x64_3_0_0 : ∀ a, (![3, 0, 0] : Fin 3 → Nat) a + S1x64x64.size a ≤ S4x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S200000x64_S4x50000x64 : S200000x64.ShapeCasts S4x50000x64
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4000x64.size a ≤ S4x200000x64.size a
  hwx0_0 : ∀ i : grid0.Coords, EltTy.bits .f32 = 32 ∨ (Rect.block (s := S4x200000x64) S4x4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x64.size a ≤ S4x64x64.size a
  hwx0_1 : ∀ i : grid0.Coords, EltTy.bits .f32 = 32 ∨ (Rect.block (s := S4x64x64) S4x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S200000x64.size a
  hwx0_3 : ∀ i : grid0.Coords, EltTy.bits .f32 = 32 ∨ (Rect.block (s := S200000x64) S4000x64.size (cc0_transform_3 i) (hinb0_3 i)).WholeWords (EltTy.packing .f32)

variable [Facts₀]

def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v56) S4x4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x50000x64 : Shape := ⟨3, ![4, 50000, 64]⟩
abbrev S800000 : Shape := ⟨1, ![800000]⟩
abbrev S4x64x64 : Shape := ⟨3, ![4, 64, 64]⟩
abbrev S64 : Shape := ⟨1, ![64]⟩
abbrev S1x64x64 : Shape := ⟨3, ![1, 64, 64]⟩
abbrev S64x64 : Shape := ⟨2, ![64, 64]⟩
abbrev S800000x1 : Shape := ⟨2, ![800000, 1]⟩
abbrev S_ : Shape := ⟨0, ![]⟩
abbrev S4x800000x64 : Shape := ⟨3, ![4, 800000, 64]⟩
abbrev S1x800000x1 : Shape := ⟨3, ![1, 800000, 1]⟩
abbrev S50000x64 : Shape := ⟨2, ![50000, 64]⟩
abbrev S1x1x64 : Shape := ⟨3, ![1, 1, 64]⟩

abbrev nBuf : Space → Nat
  | .hbm => 89
  | .vmem => 0
  | .smem => 0
  | _ => 0

abbrev bufTy : (tb : Table) → Fin (tcTables nBuf tb) → BufTy
  | .hbm, ⟨0, _⟩ => ⟨S4x50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S4x64x64, .f32⟩
  | .hbm, ⟨5, _⟩ => ⟨S64, .f32⟩
  | .hbm, ⟨6, _⟩ => ⟨S1x64x64, .f32⟩
  | .hbm, ⟨7, _⟩ => ⟨S64x64, .f32⟩
  | .hbm, ⟨8, _⟩ => ⟨S4x50000x64, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S4x800000x64, .f32⟩
  | .hbm, ⟨19, _⟩ => ⟨S1x800000x1, .f32⟩
  | .hbm, ⟨20, _⟩ => ⟨S4x800000x64, .f32⟩
  | .hbm, ⟨21, _⟩ => ⟨S4x800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S4x50000x64, .f32⟩
  | .hbm, ⟨26, _⟩ => ⟨S4x50000x64, .f32⟩
  | .hbm, ⟨27, _⟩ => ⟨S1x64x64, .f32⟩
  | .hbm, ⟨28, _⟩ => ⟨S64x64, .f32⟩
  | .hbm, ⟨29, _⟩ => ⟨S4x50000x64, .f32⟩
  | .hbm, ⟨30, _⟩ => ⟨S4x50000x64, .f32⟩
  | .hbm, ⟨31, _⟩ => ⟨S800000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S4x800000x64, .f32⟩
  | .hbm, ⟨41, _⟩ => ⟨S1x800000x1, .f32⟩
  | .hbm, ⟨42, _⟩ => ⟨S4x800000x64, .f32⟩
  | .hbm, ⟨43, _⟩ => ⟨S4x800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S4x50000x64, .f32⟩
  | .hbm, ⟨48, _⟩ => ⟨S4x50000x64, .f32⟩
  | .hbm, ⟨49, _⟩ => ⟨S_, .f32⟩
  | .hbm, ⟨50, _⟩ => ⟨S4x50000x64, .f32⟩
  | .hbm, ⟨51, _⟩ => ⟨S4x50000x64, .f32⟩
  | .hbm, ⟨52, _⟩ => ⟨S4x50000x64, .f32⟩
  | .hbm, ⟨53, _⟩ => ⟨S1x64x64, .f32⟩
  | .hbm, ⟨54, _⟩ => ⟨S64x64, .f32⟩
  | .hbm, ⟨55, _⟩ => ⟨S4x50000x64, .f32⟩
  | .hbm, ⟨56, _⟩ => ⟨S4x50000x64, .f32⟩
  | .hbm, ⟨57, _⟩ => ⟨S800000x1, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S4x800000x64, .f32⟩
  | .hbm, ⟨67, _⟩ => ⟨S1x800000x1, .f32⟩
  | .hbm, ⟨68, _⟩ => ⟨S4x800000x64, .f32⟩
  | .hbm, ⟨69, _⟩ => ⟨S4x800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S4x50000x64, .f32⟩
  | .hbm, ⟨74, _⟩ => ⟨S4x50000x64, .f32⟩
  | .hbm, ⟨75, _⟩ => ⟨S_, .f32⟩
  | .hbm, ⟨76, _⟩ => ⟨S4x50000x64, .f32⟩
  | .hbm, ⟨77, _⟩ => ⟨S4x50000x64, .f32⟩
  | .hbm, ⟨78, _⟩ => ⟨S4x50000x64, .f32⟩
  | .hbm, ⟨79, _⟩ => ⟨S1x64x64, .f32⟩
  | .hbm, ⟨80, _⟩ => ⟨S64x64, .f32⟩
  | .hbm, ⟨81, _⟩ => ⟨S4x50000x64, .f32⟩
  | .hbm, ⟨82, _⟩ => ⟨S4x50000x64, .f32⟩
  | .hbm, ⟨83, _⟩ => ⟨S1x1x64, .f32⟩
  | .hbm, ⟨84, _⟩ => ⟨S4x50000x64, .f32⟩
  | .hbm, ⟨85, _⟩ => ⟨S4x50000x64, .f32⟩
  | .hbm, ⟨86, _⟩ => ⟨S_, .f32⟩
  | .hbm, ⟨87, _⟩ => ⟨S4x50000x64, .f32⟩
  | .hbm, ⟨88, _⟩ => ⟨S4x50000x64, .f32⟩
  | _, _ => ⟨S4x50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call0_cst : Ref sig .tc := ⟨.hbm, 86, rfl⟩
abbrev main_call0_v0 : Ref sig .tc := ⟨.hbm, 87, rfl⟩
abbrev main_v69 : Ref sig .tc := ⟨.hbm, 88, rfl⟩

abbrev nD : Nat := 1
abbrev τ : Topo := Topo.v7x

variable {F : FTy → Type} [FloatOps F]

class Facts₀ : Prop where
  slices_S4x64x64_S1x64x64_0_0_0 : S4x64x64.Slices ![0, 0, 0] S1x64x64
  shapeCasts_S1x64x64_S64x64 : S1x64x64.ShapeCasts S64x64
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S1x800000x1_1_2 : S800000x1.BroadcastsInDim S1x800000x1 (![1, 2] : Fin 2 → Fin S1x800000x1.rank)
  bcast_S1x800000x1_S4x800000x64_0_1_2 : S1x800000x1.BroadcastsInDim S4x800000x64 (![0, 1, 2] : Fin 3 → Fin S4x800000x64.rank)
  bcast_S_S50000x64 : S_.BroadcastsInDim S50000x64 (![] : Fin 0 → Fin S50000x64.rank)
  bcast_S50000x64_S4x50000x64_1_2 : S50000x64.BroadcastsInDim S4x50000x64 (![1, 2] : Fin 2 → Fin S4x50000x64.rank)
  slices_S4x64x64_S1x64x64_1_0_0 : S4x64x64.Slices ![1, 0, 0] S1x64x64
  bcast_S_S4x50000x64 : S_.BroadcastsInDim S4x50000x64 (![] : Fin 0 → Fin S4x50000x64.rank)
  slices_S4x64x64_S1x64x64_2_0_0 : S4x64x64.Slices ![2, 0, 0] S1x64x64
  slices_S4x64x64_S1x64x64_3_0_0 : S4x64x64.Slices ![3, 0, 0] S1x64x64
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  dot_S4x50000x64_S64x64_S4x50000x64_2_0_01_1_n_n_wf : DotDims.WF S4x50000x64 S64x64 S4x50000x64 [2] [0] [0, 1] [1] [] []
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1

variable [Facts₀]

def dot_S4x50000x64_S64x64_S4x50000x64_2_0_01_1_n_n : DotDims S4x50000x64 S64x64 S4x50000x64 where
  lhsContracting := [2]
  rhsContracting := [0]
  lhsNonContracting := [0, 1]
  rhsNonContracting := [1]
  lhsBatch := []
  rhsBatch := []
  wf := dot_S4x50000x64_S64x64_S4x50000x64_2_0_01_1_n_n_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf

class Facts : Prop extends Facts₀ where

variable [Facts]
-- ==== Proof.ChebHostB.lean ====
/-
  The host lines around the filter kernel's launch.

  @main first builds the four Chebyshev terms on the host (three sparse products, each a gather, a scaling and a
  scatter-add, with the recurrence T_k = 2 L T_(k-1) - T_(k-2)), stacks them and reshapes the bias: 69 host lines,
  none of which writes an argument array. Then comes the launch, and one last line that reshapes the 200000 x 64
  result to 4 x 50000 x 64. This file states what the launch finds in each buffer (`entry`, `atEntry`), that
  @main is "those lines, the launch, that line", what the last line may touch, and that every argument array is, at
  the launch and after the last line, what it was at the start.
-/
import proofs.«177674_j1047972020814_1_alg».proof.Proof.Gen.Kernel.Launch
import Idealize.ShloMosaic.Lib.Pipeline.FrameBody
import Idealize.ShloMosaic.Lib.Pipeline.FrameSuffix

set_option maxRecDepth 16384

noncomputable section

namespace Cert.Kernel.Cheb

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ) (ρ : Dev nD → PrngReg)

/-! ## What the launch finds -/

/-- Core `c`'s TensorCore buffers when the kernel is launched: the start contents after the 69 host lines. -/
abbrev entry (c : Dev nD) : Valuation τ sig (Elt F) := StableHlo.after (List.flatten [hostOps0]) (fun b => m (c, b))
/-- The same, read at one buffer. -/
abbrev atEntry (c : Dev nD) (b : Ref sig .tc) : Buf (Elt F) ((c : Thread nD τ).loc b) := entry m c (Proc.devRef .tc b)

/-- No host line allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the 69 lines, the launch, the closing reshape; so running it comes down to running the launch from
    `atEntry`, continued by the reshape. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-! ## The closing reshape -/

/-- It touches only unscoped TensorCore buffers. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem post_alloc : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp post_fresh) op hop
/-- It writes its own result buffer, which is none of the four arrays the kernel's windows range over. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The argument arrays are never written -/

/-- A buffer that none of the 69 lines writes is found by the launch as it was at the start. Each line writes one
    buffer, its result; the proof lists them and compares. -/
theorem atEntry_of_unwritten (c : Dev nD) (b : Ref sig .tc)
    (hb : (hostOps0 : List (HloOp τ sig (Elt F))).Forall fun op => Proc.devRef .tc b ∉ op.writes) :
    atEntry m c b = m ((c : Thread nD τ).loc b) :=
  StableHlo.after_of_forall_not_mem (b := Proc.devRef .tc b) _ _ (List.forall_iff_forall_mem.mp (by
    simpa only [List.flatten_cons, List.flatten_nil, List.append_nil] using hb))

/-- Discharges "no host line of the list writes this buffer" by listing each line's result buffer. -/
local macro "unwritten" : tactic => `(tactic| (
  simp only [hostOps0, hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 2000000 in
theorem pre_keeps_arg0 : (hostOps0 : List (HloOp τ sig (Elt F))).Forall fun op => Proc.devRef .tc main_arg0 ∉ op.writes := by unwritten
set_option maxHeartbeats 2000000 in
theorem pre_keeps_arg1 : (hostOps0 : List (HloOp τ sig (Elt F))).Forall fun op => Proc.devRef .tc main_arg1 ∉ op.writes := by unwritten
set_option maxHeartbeats 2000000 in
theorem pre_keeps_arg2 : (hostOps0 : List (HloOp τ sig (Elt F))).Forall fun op => Proc.devRef .tc main_arg2 ∉ op.writes := by unwritten
set_option maxHeartbeats 2000000 in
theorem pre_keeps_arg3 : (hostOps0 : List (HloOp τ sig (Elt F))).Forall fun op => Proc.devRef .tc main_arg3 ∉ op.writes := by unwritten
set_option maxHeartbeats 2000000 in
theorem pre_keeps_arg4 : (hostOps0 : List (HloOp τ sig (Elt F))).Forall fun op => Proc.devRef .tc main_arg4 ∉ op.writes := by unwritten
set_option maxHeartbeats 2000000 in
theorem pre_keeps_arg5 : (hostOps0 : List (HloOp τ sig (Elt F))).Forall fun op => Proc.devRef .tc main_arg5 ∉ op.writes := by unwritten

theorem atEntry_arg0 (c : Dev nD) : atEntry m c main_arg0 = m ((c : Thread nD τ).loc main_arg0) := atEntry_of_unwritten m c _ pre_keeps_arg0
theorem atEntry_arg1 (c : Dev nD) : atEntry m c main_arg1 = m ((c : Thread nD τ).loc main_arg1) := atEntry_of_unwritten m c _ pre_keeps_arg1
theorem atEntry_arg2 (c : Dev nD) : atEntry m c main_arg2 = m ((c : Thread nD τ).loc main_arg2) := atEntry_of_unwritten m c _ pre_keeps_arg2
theorem atEntry_arg3 (c : Dev nD) : atEntry m c main_arg3 = m ((c : Thread nD τ).loc main_arg3) := atEntry_of_unwritten m c _ pre_keeps_arg3
theorem atEntry_arg4 (c : Dev nD) : atEntry m c main_arg4 = m ((c : Thread nD τ).loc main_arg4) := atEntry_of_unwritten m c _ pre_keeps_arg4
theorem atEntry_arg5 (c : Dev nD) : atEntry m c main_arg5 = m ((c : Thread nD τ).loc main_arg5) := atEntry_of_unwritten m c _ pre_keeps_arg5

/-! ## After the closing reshape -/

/-- What a buffer holds after the launch and the closing reshape, for any proof data of the launch: the library's
    `afterTail₀` at this program. -/
abbrev atExit (dats : (p : Fin 1) → (c : Dev nD) → Dat τ (Elt F) Unit ℕ (UR sig nD τ) ℕ (cfgs p) c) (c : Dev nD) (b : Ref sig .tc) :
    Buf (Elt F) ((c.tc : Thread nD τ).loc b) :=
  Pipeline.afterTail₀ cfgs dats 0 (entry m) [hostOps1] c b

/-- A buffer the reshape does not write, other than the kernel's four arrays, ends as the launch found it. -/
theorem atExit_of_other (dats : (p : Fin 1) → (c : Dev nD) → Dat τ (Elt F) Unit ℕ (UR sig nD τ) ℕ (cfgs p) c) (c : Dev nD) (b : Ref sig .tc)
    (hb : (hostOps1 : List (HloOp τ sig (Elt F))).Forall fun op => Proc.devRef .tc b ∉ op.writes)
    (hw : ∀ w, Pipeline.arrRef spec0 w ≠ b) : atExit m dats c b = atEntry m c b := by
  unfold atExit Pipeline.afterTail₀
  rw [StableHlo.after_of_forall_not_mem (b := Proc.devRef .tc b) _ _ (List.forall_iff_forall_mem.mp (by
      simpa only [List.flatten_cons, List.flatten_nil, List.append_nil] using hb)),
    Pipeline.withArrays_of_ne _ c (entry m c) _ b hw]

/-- The arguments among the kernel's arrays (the weights) are inputs; the others are no array of it. -/
theorem atExit_arg0 (dats) (c : Dev nD) : atExit m dats c main_arg0 = m ((c : Thread nD τ).loc main_arg0) :=
  (atExit_of_other m dats c _ (by unwritten) (by decide)).trans (atEntry_arg0 m c)
theorem atExit_arg1 (dats) (c : Dev nD) : atExit m dats c main_arg1 = m ((c : Thread nD τ).loc main_arg1) :=
  (atExit_of_other m dats c _ (by unwritten) (by decide)).trans (atEntry_arg1 m c)
theorem atExit_arg2 (dats) (c : Dev nD) : atExit m dats c main_arg2 = m ((c : Thread nD τ).loc main_arg2) :=
  (atExit_of_other m dats c _ (by unwritten) (by decide)).trans (atEntry_arg2 m c)
theorem atExit_arg3 (dats) (c : Dev nD) : atExit m dats c main_arg3 = m ((c : Thread nD τ).loc main_arg3) :=
  (atExit_of_other m dats c _ (by unwritten) (by decide)).trans (atEntry_arg3 m c)
theorem atExit_arg5 (dats) (c : Dev nD) : atExit m dats c main_arg5 = m ((c : Thread nD τ).loc main_arg5) :=
  (atExit_of_other m dats c _ (by unwritten) (by decide)).trans (atEntry_arg5 m c)

end Cert.Kernel.Cheb

end
-- ==== Proof.ChebBodyB.lean ====
/-
  The filter kernel's body, run once on whole staging buffers.

  The body reads the four Chebyshev terms of one row tile (the four unit slabs of its 4 x 4000 x 64 input
  buffer), the four 64 x 64 filter matrices (the slabs of the 4 x 64 x 64 weight buffer) and the 1 x 64 bias row,
  and overwrites the whole 4000 x 64 output buffer with ONE store. Nothing else is touched: the three input
  buffers end as they were found, and the output buffer ends at `tileOut` of the three inputs, whatever it held.
  The arithmetic itself is not opened here: `tileOut` is the store's payload over the loaded slabs, in the
  skeleton's names, so the statement holds at every float instance.
-/
import proofs.«177674_j1047972020814_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

/-- Term `k`'s slab of the stacked tile: rows `[k, k+1)` of the leading axis, everything of the other two. -/
abbrev termSlab0 : Rect S4x4000x64 := Rect.unit (s := S4x4000x64) ![0, 0, 0] S1x4000x64.size inb_S4x4000x64_S1x4000x64_0_0_0
abbrev termSlab1 : Rect S4x4000x64 := Rect.unit (s := S4x4000x64) ![1, 0, 0] S1x4000x64.size inb_S4x4000x64_S1x4000x64_1_0_0
abbrev termSlab2 : Rect S4x4000x64 := Rect.unit (s := S4x4000x64) ![2, 0, 0] S1x4000x64.size inb_S4x4000x64_S1x4000x64_2_0_0
abbrev termSlab3 : Rect S4x4000x64 := Rect.unit (s := S4x4000x64) ![3, 0, 0] S1x4000x64.size inb_S4x4000x64_S1x4000x64_3_0_0
/-- Filter `k`'s slab of the weights. -/
abbrev filtSlab0 : Rect S4x64x64 := Rect.unit (s := S4x64x64) ![0, 0, 0] S1x64x64.size inb_S4x64x64_S1x64x64_0_0_0
abbrev filtSlab1 : Rect S4x64x64 := Rect.unit (s := S4x64x64) ![1, 0, 0] S1x64x64.size inb_S4x64x64_S1x64x64_1_0_0
abbrev filtSlab2 : Rect S4x64x64 := Rect.unit (s := S4x64x64) ![2, 0, 0] S1x64x64.size inb_S4x64x64_S1x64x64_2_0_0
abbrev filtSlab3 : Rect S4x64x64 := Rect.unit (s := S4x64x64) ![3, 0, 0] S1x64x64.size inb_S4x64x64_S1x64x64_3_0_0
/-- The bias row, whole. -/
abbrev biasAll : Rect S1x64 := Rect.unit (s := S1x64) ![0, 0] S1x64.size inb_S1x64_S1x64_0_0
/-- The output tile, whole. -/
abbrev outAll : Rect S4000x64 := Rect.unit (s := S4000x64) ![0, 0] S4000x64.size inb_S4000x64_S4000x64_0_0

/-! ## What the one store leaves in the output buffer -/

/-- The stored value: the accumulated products of the first three terms (`k0_pay2`), the fourth term and filter
    rounded for the matrix unit (`k0_pay3`, `k0_pay4`), the bias row; `k0_pay1` adds the fourth product and the bias
    and clamps at zero. -/
def tileVal (x : Vec F S4x4000x64 .f32) (w : Vec F S4x64x64 .f32) (b : Vec F S1x64 .f32) : FVec F S4000x64 .f32 :=
  k0_pay1
    (k0_pay2 (View.ld x termSlab0) (View.ld w filtSlab0) (View.ld x termSlab1) (View.ld w filtSlab1) (View.ld x termSlab2) (View.ld w filtSlab2))
    (k0_pay3 (View.ld x termSlab3)) (k0_pay4 (View.ld w filtSlab3)) (View.ld b biasAll)

/-- The output buffer after the body: its single store read back as a whole-buffer value. -/
def tileOut (x : Vec F S4x4000x64 .f32) (w : Vec F S4x64x64 .f32) (b : Vec F S1x64 .f32) : Vec F S4000x64 .f32 :=
  View.canon [⟨outAll, tileVal x w b⟩]

/-- The one store's rectangle is the whole buffer. -/
theorem outAll_covers (p : Vec F S4000x64 .f32) (y : S4000x64.Idx) :
    ∃ pc ∈ ([⟨outAll, p⟩] : List (View.Piece (Elt F) S4000x64 .f32)), y ∈ pc.1.set :=
  View.cover_of_tiled [⟨outAll, p⟩] S4000x64.size (by rfl) y

/-! ## The run -/

set_option maxHeartbeats 1000000 in
/-- The body on whole buffers: given the stacked tile at `x`, the weights at `w`, the bias at `b` and the output
    buffer at anything, it runs to its end without a fault, gives the three inputs back unchanged and leaves the
    output buffer at `tileOut x w b`. -/
theorem body_runs (c : Dev nD) (E : Set ℕ) (i : grid0.Coords)
    (arg1 : Memref sig .tc .vmem S4x4000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S4000x64 .f32) (harg4 : arg4.IsWhole)
    (x : Vec F S4x4000x64 .f32) (w : Vec F S4x64x64 .f32) (b : Vec F S1x64 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tileOut x w b)) -∗ K ⟨⟩))
      ⊢ wp frame (wpE (defs₀ (F := F)) Variants.none c none) E (cc0__cheb_accumulate_kernel i arg1 harg1 arg2 harg2 arg3 harg3 arg4 harg4) K := by
  simp only [cc0__cheb_accumulate_kernel_eq_skeleton]; unfold cc0__cheb_accumulate_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (outAll_covers _)

end Cert.Kernel.Cheb

end
-- ==== Proof.ChebFrameB.lean ====
/-
  The filter kernel's launch: fifty row tiles, each one body run.

  Grid point `t` stages rows `[4000 t, 4000 t + 4000)` of the stacked terms (all four terms, all 64 channels), the
  whole weight array and the whole bias row, runs the body, and writes the 4000 x 64 result back to rows
  `[4000 t, 4000 t + 4000)` of the output array. The weights and the bias are fetched once and found again at every
  later point, because the body leaves its input buffers as it found them. So at every point the body is handed
  exactly the tiles of the arrays as the launch found them, and `ChebBodyB`'s run applies.

  From this: @main terminates without a fault; the output array ends at what the library assembles from the
  fifty stored tiles (`Dat.arrAt`), every other buffer at what the closing reshape makes of it; and the argument
  arrays end as they started.
-/
import proofs.«177674_j1047972020814_1_alg».proof.Proof.ChebHostB
import proofs.«177674_j1047972020814_1_alg».proof.Proof.ChebBodyB
import proofs.«177674_j1047972020814_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Cheb

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles -/

/-- Window `w`'s tile at grid point `t`: its block of the array the launch finds. -/
def tile (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## The launch's proof data -/

/-- On core `c`: the arrays are what the launch finds; after the body at point `t` each input buffer holds its
    tile and the output buffer the body's result on the three tiles; the body uses nothing else. -/
def tiles (_ : Fin 1) (c : Dev nD) : Dat τ (Elt F) Unit ℕ (UR sig nD τ) ℕ cfg0 c where
  A w := atEntry m c (Pipeline.arrRef spec0 w)
  after w t := match w with
    | ⟨0, _⟩ => tile m c 0 t
    | ⟨1, _⟩ => tile m c 1 t
    | ⟨2, _⟩ => tile m c 2 t
    | ⟨3, _⟩ => tileOut (tile m c 0 t) (tile m c 1 t) (tile m c 2 t)
  Φ _ := Pipeline.ΦA spec0 c
  q _ := fullShare
  owed _ := 0

theorem tiles_A (c : Dev nD) (w : Fin cfg0.W) : (tiles m 0 c).A w = atEntry m c (Pipeline.arrRef spec0 w) := by
  dsimp only [tiles]
theorem tiles_after0 (c : Dev nD) (t : Fin cfg0.N) : (tiles m 0 c).after 0 t = tile m c 0 t := by dsimp only [tiles]
theorem tiles_after1 (c : Dev nD) (t : Fin cfg0.N) : (tiles m 0 c).after 1 t = tile m c 1 t := by dsimp only [tiles]
theorem tiles_after2 (c : Dev nD) (t : Fin cfg0.N) : (tiles m 0 c).after 2 t = tile m c 2 t := by dsimp only [tiles]
theorem tiles_after3 (c : Dev nD) (t : Fin cfg0.N) :
    (tiles m 0 c).after 3 t = tileOut (tile m c 0 t) (tile m c 1 t) (tile m c 2 t) := by dsimp only [tiles]

/-! ## What the body is handed -/

/-- The stacked terms' buffer holds the point's tile (it is fetched at every point). -/
theorem handed0 (c : Dev nD) (t : Fin cfg0.N) (d) : (tiles m 0 c).before 0 t d = tile m c 0 t :=
  ((tiles m 0 c).before_in_eq_fetched 0 rfl (fun _ => rfl) (fun _ _ _ => rfl)
      (fun t => by rw [tiles_after0]; unfold Dat.blockOf tile; rw [tiles_A]; try rfl) t d).trans
    (by unfold Dat.fetched Dat.blockOf tile; rw [tiles_A]; try rfl)
/-- The weights' buffer holds the whole weight array at every point: fetched at the first, left in place after. -/
theorem handed1 (c : Dev nD) (t : Fin cfg0.N) (d) : (tiles m 0 c).before 1 t d = tile m c 1 t :=
  ((tiles m 0 c).before_in_eq_fetched 1 rfl (fun _ => rfl) (fun _ _ _ => rfl)
      (fun t => by rw [tiles_after1]; unfold Dat.blockOf tile; rw [tiles_A]; try rfl) t d).trans
    (by unfold Dat.fetched Dat.blockOf tile; rw [tiles_A]; try rfl)
/-- The bias buffer likewise. -/
theorem handed2 (c : Dev nD) (t : Fin cfg0.N) (d) : (tiles m 0 c).before 2 t d = tile m c 2 t :=
  ((tiles m 0 c).before_in_eq_fetched 2 rfl (fun _ => rfl) (fun _ _ _ => rfl)
      (fun t => by rw [tiles_after2]; unfold Dat.blockOf tile; rw [tiles_A]; try rfl) t d).trans
    (by unfold Dat.fetched Dat.blockOf tile; rw [tiles_A]; try rfl)

/-! ## One grid point -/

/-- Before the body at point `t`: the invariant, the core's dues, the four current staging buffers. -/
def pointPre (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d)))

/-- After it. -/
def pointPost (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t))

/-- The body at point `t`: the inputs' buffers hold the tiles, so the body's run applies; the invariant and the
    dues are not touched. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [handed0, handed1, handed2]
  rw [show (tiles m 0 c).Φ t.succ = (tiles m 0 c).Φ t.castSucc from rfl,
    show (tiles m 0 c).owesAt () t.succ = (tiles m 0 c).owesAt () t.castSucc from rfl,
    tiles_after0, tiles_after1, tiles_after2, tiles_after3]
  iintro ⟨HΦ, Ho, ⟨%d0, H0⟩, ⟨%d1, H1⟩, ⟨%d2, H2⟩, ⟨%d3, H3⟩⟩
  iapply (body_runs c Set.univ (grid0.coords t) _ _ _ _ _ _ _ _ (tile m c 0 t) (tile m c 1 t) (tile m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Every point, in the library's form. -/
theorem every_point (c : Dev nD) : BodyObligation (tiles (F := F) m 0 c) (defs₀ (F := F)) Variants.none () Set.univ := fun t => by
  rw [bigSep_W0, bigSep_W0]
  exact point_runs m c t

/-! ## The whole run -/

set_option backward.isDefEq.respectTransparency.types false in
/-- From any start memory with zero semaphores: every weakly fair execution of @main terminates without a fault;
    each of the kernel's four arrays ends at what the fifty write-backs make of it, every other unscoped buffer at
    what the closing reshape leaves. -/
theorem main_runs : θ_run defs (onTc (τ := τ) (main (F := F))) (s₀ m ρ)
    (Pipeline.FramePost cfgs (tiles m) 0 (atExit m (tiles m))) :=
  Pipeline.θ_run_frame_around cfgs (tiles m) (0 : Fin 1) launch0 defs₀ Variants.none m ρ main
    (hbody := fun c => (every_point m c).loose) (hshare := fun c => (tiles m 0 c).share_full fun _ => rfl)
    (howed := fun _ _ => rfl) (V₀ := entry m) (opss := [hostOps1]) (hsub := post_sub) (hfresh := post_alloc) (hkeep := post_keeps)
    (hmain := main_around m Variants.none) (hA := tiles_A m) (hΦ := fun _ _ => rfl)

/-- What the run's final states say of the argument arrays: the weights are an input array of the launch, which the
    library never changes; the other five are no array of the launch, and neither the 69 lines nor the closing
    reshape writes them. -/
theorem post_keeps_args (r : PUnit × MemSt nD τ sig (Elt F))
    (h : Pipeline.FramePost cfgs (tiles m) 0 (atExit m (tiles m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (atExit_arg0 m (tiles m) c),
   ((h c).2 main_arg1 (Pipeline.mem_restRefs_of main_arg1 (by decide) (by decide))).trans (atExit_arg1 m (tiles m) c),
   ((h c).2 main_arg2 (Pipeline.mem_restRefs_of main_arg2 (by decide) (by decide))).trans (atExit_arg2 m (tiles m) c),
   ((h c).2 main_arg3 (Pipeline.mem_restRefs_of main_arg3 (by decide) (by decide))).trans (atExit_arg3 m (tiles m) c),
   (((h c).1 1).trans ((tiles m 0 c).arrAt_in 1 rfl _)).trans ((tiles_A m c 1).trans (atEntry_arg4 m c)),
   ((h c).2 main_arg5 (Pipeline.mem_restRefs_of main_arg5 (by decide) (by decide))).trans (atExit_arg5 m (tiles m) c)⟩

/-- The argument arrays end as they started. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => post_keeps_args m r h c) (main_runs m ρ)

end Cert.Kernel.Cheb

end
-- ==== Proof.ChebHostI.lean ====
/-
  The host lines around the filter kernel's launch.

  @main first builds the four Chebyshev terms on the host (three sparse products, each a gather, a scaling and a
  scatter-add, with the recurrence T_k = 2 L T_(k-1) - T_(k-2)), stacks them and reshapes the bias: 69 host lines,
  none of which writes an argument array. Then comes the launch, and one last line that reshapes the 200000 x 64
  result to 4 x 50000 x 64. This file states what the launch finds in each buffer (`entry`, `atEntry`), that
  @main is "those lines, the launch, that line", what the last line may touch, and that every argument array is, at
  the launch and after the last line, what it was at the start.
-/
import proofs.«177674_j1047972020814_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Cheb

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ) (ρ : Dev nD → PrngReg)

/-! ## What the launch finds -/

/-- Core `c`'s TensorCore buffers when the kernel is launched: the start contents after the 69 host lines. -/
abbrev entry (c : Dev nD) : Valuation τ sig (Elt F) := StableHlo.after (List.flatten [hostOps0]) (fun b => m (c, b))
/-- The same, read at one buffer. -/
abbrev atEntry (c : Dev nD) (b : Ref sig .tc) : Buf (Elt F) ((c : Thread nD τ).loc b) := entry m c (Proc.devRef .tc b)

/-- No host line allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the 69 lines, the launch, the closing reshape; so running it comes down to running the launch from
    `atEntry`, continued by the reshape. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-! ## The closing reshape -/

/-- It touches only unscoped TensorCore buffers. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- It allocates nothing. -/
theorem post_alloc : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp post_fresh) op hop
/-- It writes its own result buffer, which is none of the four arrays the kernel's windows range over. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-! ## The argument arrays are never written -/

/-- A buffer that none of the 69 lines writes is found by the launch as it was at the start. Each line writes one
    buffer, its result; the proof lists them and compares. -/
theorem atEntry_of_unwritten (c : Dev nD) (b : Ref sig .tc)
    (hb : (hostOps0 : List (HloOp τ sig (Elt F))).Forall fun op => Proc.devRef .tc b ∉ op.writes) :
    atEntry m c b = m ((c : Thread nD τ).loc b) :=
  StableHlo.after_of_forall_not_mem (b := Proc.devRef .tc b) _ _ (List.forall_iff_forall_mem.mp (by
    simpa only [List.flatten_cons, List.flatten_nil, List.append_nil] using hb))

/-- Discharges "no host line of the list writes this buffer" by listing each line's result buffer. -/
local macro "unwritten" : tactic => `(tactic| (
  simp only [hostOps0, hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

set_option maxHeartbeats 2000000 in
theorem pre_keeps_arg0 : (hostOps0 : List (HloOp τ sig (Elt F))).Forall fun op => Proc.devRef .tc main_arg0 ∉ op.writes := by unwritten
set_option maxHeartbeats 2000000 in
theorem pre_keeps_arg1 : (hostOps0 : List (HloOp τ sig (Elt F))).Forall fun op => Proc.devRef .tc main_arg1 ∉ op.writes := by unwritten
set_option maxHeartbeats 2000000 in
theorem pre_keeps_arg2 : (hostOps0 : List (HloOp τ sig (Elt F))).Forall fun op => Proc.devRef .tc main_arg2 ∉ op.writes := by unwritten
set_option maxHeartbeats 2000000 in
theorem pre_keeps_arg3 : (hostOps0 : List (HloOp τ sig (Elt F))).Forall fun op => Proc.devRef .tc main_arg3 ∉ op.writes := by unwritten
set_option maxHeartbeats 2000000 in
theorem pre_keeps_arg4 : (hostOps0 : List (HloOp τ sig (Elt F))).Forall fun op => Proc.devRef .tc main_arg4 ∉ op.writes := by unwritten
set_option maxHeartbeats 2000000 in
theorem pre_keeps_arg5 : (hostOps0 : List (HloOp τ sig (Elt F))).Forall fun op => Proc.devRef .tc main_arg5 ∉ op.writes := by unwritten

theorem atEntry_arg0 (c : Dev nD) : atEntry m c main_arg0 = m ((c : Thread nD τ).loc main_arg0) := atEntry_of_unwritten m c _ pre_keeps_arg0
theorem atEntry_arg1 (c : Dev nD) : atEntry m c main_arg1 = m ((c : Thread nD τ).loc main_arg1) := atEntry_of_unwritten m c _ pre_keeps_arg1
theorem atEntry_arg2 (c : Dev nD) : atEntry m c main_arg2 = m ((c : Thread nD τ).loc main_arg2) := atEntry_of_unwritten m c _ pre_keeps_arg2
theorem atEntry_arg3 (c : Dev nD) : atEntry m c main_arg3 = m ((c : Thread nD τ).loc main_arg3) := atEntry_of_unwritten m c _ pre_keeps_arg3
theorem atEntry_arg4 (c : Dev nD) : atEntry m c main_arg4 = m ((c : Thread nD τ).loc main_arg4) := atEntry_of_unwritten m c _ pre_keeps_arg4
theorem atEntry_arg5 (c : Dev nD) : atEntry m c main_arg5 = m ((c : Thread nD τ).loc main_arg5) := atEntry_of_unwritten m c _ pre_keeps_arg5

/-! ## After the closing reshape -/

/-- What a buffer holds after the launch and the closing reshape, for any proof data of the launch: the library's
    `afterTail₀` at this program. -/
abbrev atExit (dats : (p : Fin 1) → (c : Dev nD) → Dat τ (Elt F) Unit ℕ (UR sig nD τ) ℕ (cfgs p) c) (c : Dev nD) (b : Ref sig .tc) :
    Buf (Elt F) ((c.tc : Thread nD τ).loc b) :=
  Pipeline.afterTail₀ cfgs dats 0 (entry m) [hostOps1] c b

/-- A buffer the reshape does not write, other than the kernel's four arrays, ends as the launch found it. -/
theorem atExit_of_other (dats : (p : Fin 1) → (c : Dev nD) → Dat τ (Elt F) Unit ℕ (UR sig nD τ) ℕ (cfgs p) c) (c : Dev nD) (b : Ref sig .tc)
    (hb : (hostOps1 : List (HloOp τ sig (Elt F))).Forall fun op => Proc.devRef .tc b ∉ op.writes)
    (hw : ∀ w, Pipeline.arrRef spec0 w ≠ b) : atExit m dats c b = atEntry m c b := by
  unfold atExit Pipeline.afterTail₀
  rw [StableHlo.after_of_forall_not_mem (b := Proc.devRef .tc b) _ _ (List.forall_iff_forall_mem.mp (by
      simpa only [List.flatten_cons, List.flatten_nil, List.append_nil] using hb)),
    Pipeline.withArrays_of_ne _ c (entry m c) _ b hw]

/-- The arguments among the kernel's arrays (the weights) are inputs; the others are no array of it. -/
theorem atExit_arg0 (dats) (c : Dev nD) : atExit m dats c main_arg0 = m ((c : Thread nD τ).loc main_arg0) :=
  (atExit_of_other m dats c _ (by unwritten) (by decide)).trans (atEntry_arg0 m c)
theorem atExit_arg1 (dats) (c : Dev nD) : atExit m dats c main_arg1 = m ((c : Thread nD τ).loc main_arg1) :=
  (atExit_of_other m dats c _ (by unwritten) (by decide)).trans (atEntry_arg1 m c)
theorem atExit_arg2 (dats) (c : Dev nD) : atExit m dats c main_arg2 = m ((c : Thread nD τ).loc main_arg2) :=
  (atExit_of_other m dats c _ (by unwritten) (by decide)).trans (atEntry_arg2 m c)
theorem atExit_arg3 (dats) (c : Dev nD) : atExit m dats c main_arg3 = m ((c : Thread nD τ).loc main_arg3) :=
  (atExit_of_other m dats c _ (by unwritten) (by decide)).trans (atEntry_arg3 m c)
theorem atExit_arg5 (dats) (c : Dev nD) : atExit m dats c main_arg5 = m ((c : Thread nD τ).loc main_arg5) :=
  (atExit_of_other m dats c _ (by unwritten) (by decide)).trans (atEntry_arg5 m c)

end Cert.KernelIdeal.Cheb

end
-- ==== Proof.ChebBodyI.lean ====
/-
  The filter kernel's body, run once on whole staging buffers.

  The body reads the four Chebyshev terms of one row tile (the four unit slabs of its 4 x 4000 x 64 input
  buffer), the four 64 x 64 filter matrices (the slabs of the 4 x 64 x 64 weight buffer) and the 1 x 64 bias row,
  and overwrites the whole 4000 x 64 output buffer with ONE store. Nothing else is touched: the three input
  buffers end as they were found, and the output buffer ends at `tileOut` of the three inputs, whatever it held.
  The arithmetic itself is not opened here: `tileOut` is the store's payload over the loaded slabs, in the
  skeleton's names, so the statement holds at every float instance.
-/
import proofs.«177674_j1047972020814_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

/-- Term `k`'s slab of the stacked tile: rows `[k, k+1)` of the leading axis, everything of the other two. -/
abbrev termSlab0 : Rect S4x4000x64 := Rect.unit (s := S4x4000x64) ![0, 0, 0] S1x4000x64.size inb_S4x4000x64_S1x4000x64_0_0_0
abbrev termSlab1 : Rect S4x4000x64 := Rect.unit (s := S4x4000x64) ![1, 0, 0] S1x4000x64.size inb_S4x4000x64_S1x4000x64_1_0_0
abbrev termSlab2 : Rect S4x4000x64 := Rect.unit (s := S4x4000x64) ![2, 0, 0] S1x4000x64.size inb_S4x4000x64_S1x4000x64_2_0_0
abbrev termSlab3 : Rect S4x4000x64 := Rect.unit (s := S4x4000x64) ![3, 0, 0] S1x4000x64.size inb_S4x4000x64_S1x4000x64_3_0_0
/-- Filter `k`'s slab of the weights. -/
abbrev filtSlab0 : Rect S4x64x64 := Rect.unit (s := S4x64x64) ![0, 0, 0] S1x64x64.size inb_S4x64x64_S1x64x64_0_0_0
abbrev filtSlab1 : Rect S4x64x64 := Rect.unit (s := S4x64x64) ![1, 0, 0] S1x64x64.size inb_S4x64x64_S1x64x64_1_0_0
abbrev filtSlab2 : Rect S4x64x64 := Rect.unit (s := S4x64x64) ![2, 0, 0] S1x64x64.size inb_S4x64x64_S1x64x64_2_0_0
abbrev filtSlab3 : Rect S4x64x64 := Rect.unit (s := S4x64x64) ![3, 0, 0] S1x64x64.size inb_S4x64x64_S1x64x64_3_0_0
/-- The bias row, whole. -/
abbrev biasAll : Rect S1x64 := Rect.unit (s := S1x64) ![0, 0] S1x64.size inb_S1x64_S1x64_0_0
/-- The output tile, whole. -/
abbrev outAll : Rect S4000x64 := Rect.unit (s := S4000x64) ![0, 0] S4000x64.size inb_S4000x64_S4000x64_0_0

/-! ## What the one store leaves in the output buffer -/

/-- The stored value: the accumulated products of the first three terms (`k0_pay2`), the fourth term and filter
    rounded for the matrix unit (`k0_pay3`, `k0_pay4`), the bias row; `k0_pay1` adds the fourth product and the bias
    and clamps at zero. -/
def tileVal (x : Vec F S4x4000x64 .f32) (w : Vec F S4x64x64 .f32) (b : Vec F S1x64 .f32) : FVec F S4000x64 .f32 :=
  k0_pay1
    (k0_pay2 (View.ld x termSlab0) (View.ld w filtSlab0) (View.ld x termSlab1) (View.ld w filtSlab1) (View.ld x termSlab2) (View.ld w filtSlab2))
    (k0_pay3 (View.ld x termSlab3)) (k0_pay4 (View.ld w filtSlab3)) (View.ld b biasAll)

/-- The output buffer after the body: its single store read back as a whole-buffer value. -/
def tileOut (x : Vec F S4x4000x64 .f32) (w : Vec F S4x64x64 .f32) (b : Vec F S1x64 .f32) : Vec F S4000x64 .f32 :=
  View.canon [⟨outAll, tileVal x w b⟩]

/-- The one store's rectangle is the whole buffer. -/
theorem outAll_covers (p : Vec F S4000x64 .f32) (y : S4000x64.Idx) :
    ∃ pc ∈ ([⟨outAll, p⟩] : List (View.Piece (Elt F) S4000x64 .f32)), y ∈ pc.1.set :=
  View.cover_of_tiled [⟨outAll, p⟩] S4000x64.size (by rfl) y

/-! ## The run -/

set_option maxHeartbeats 1000000 in
/-- The body on whole buffers: given the stacked tile at `x`, the weights at `w`, the bias at `b` and the output
    buffer at anything, it runs to its end without a fault, gives the three inputs back unchanged and leaves the
    output buffer at `tileOut x w b`. -/
theorem body_runs (c : Dev nD) (E : Set ℕ) (i : grid0.Coords)
    (arg1 : Memref sig .tc .vmem S4x4000x64 .f32) (harg1 : arg1.IsWhole) (arg2 : Memref sig .tc .vmem S4x64x64 .f32) (harg2 : arg2.IsWhole)
    (arg3 : Memref sig .tc .vmem S1x64 .f32) (harg3 : arg3.IsWhole) (arg4 : Memref sig .tc .vmem S4000x64 .f32) (harg4 : arg4.IsWhole)
    (x : Vec F S4x4000x64 .f32) (w : Vec F S4x64x64 .f32) (b : Vec F S1x64 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tileOut x w b)) -∗ K ⟨⟩))
      ⊢ wp frame (wpE (defs₀ (F := F)) Variants.none c none) E (cc0__cheb_accumulate_kernel i arg1 harg1 arg2 harg2 arg3 harg3 arg4 harg4) K := by
  simp only [cc0__cheb_accumulate_kernel_eq_skeleton]; unfold cc0__cheb_accumulate_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (outAll_covers _)

end Cert.KernelIdeal.Cheb

end
-- ==== Proof.ChebFrameI.lean ====
/-
  The filter kernel's launch: fifty row tiles, each one body run.

  Grid point `t` stages rows `[4000 t, 4000 t + 4000)` of the stacked terms (all four terms, all 64 channels), the
  whole weight array and the whole bias row, runs the body, and writes the 4000 x 64 result back to rows
  `[4000 t, 4000 t + 4000)` of the output array. The weights and the bias are fetched once and found again at every
  later point, because the body leaves its input buffers as it found them. So at every point the body is handed
  exactly the tiles of the arrays as the launch found them, and `ChebBodyI`'s run applies.

  From this: @main terminates without a fault; the output array ends at what the library assembles from the
  fifty stored tiles (`Dat.arrAt`), every other buffer at what the closing reshape makes of it; and the argument
  arrays end as they started.
-/
import proofs.«177674_j1047972020814_1_alg».proof.Proof.ChebHostI
import proofs.«177674_j1047972020814_1_alg».proof.Proof.ChebBodyI
import proofs.«177674_j1047972020814_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Cheb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles -/

/-- Window `w`'s tile at grid point `t`: its block of the array the launch finds. -/
def tile (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## The launch's proof data -/

/-- On core `c`: the arrays are what the launch finds; after the body at point `t` each input buffer holds its
    tile and the output buffer the body's result on the three tiles; the body uses nothing else. -/
def tiles (_ : Fin 1) (c : Dev nD) : Dat τ (Elt F) Unit ℕ (UR sig nD τ) ℕ cfg0 c where
  A w := atEntry m c (Pipeline.arrRef spec0 w)
  after w t := match w with
    | ⟨0, _⟩ => tile m c 0 t
    | ⟨1, _⟩ => tile m c 1 t
    | ⟨2, _⟩ => tile m c 2 t
    | ⟨3, _⟩ => tileOut (tile m c 0 t) (tile m c 1 t) (tile m c 2 t)
  Φ _ := Pipeline.ΦA spec0 c
  q _ := fullShare
  owed _ := 0

theorem tiles_A (c : Dev nD) (w : Fin cfg0.W) : (tiles m 0 c).A w = atEntry m c (Pipeline.arrRef spec0 w) := by
  dsimp only [tiles]
theorem tiles_after0 (c : Dev nD) (t : Fin cfg0.N) : (tiles m 0 c).after 0 t = tile m c 0 t := by dsimp only [tiles]
theorem tiles_after1 (c : Dev nD) (t : Fin cfg0.N) : (tiles m 0 c).after 1 t = tile m c 1 t := by dsimp only [tiles]
theorem tiles_after2 (c : Dev nD) (t : Fin cfg0.N) : (tiles m 0 c).after 2 t = tile m c 2 t := by dsimp only [tiles]
theorem tiles_after3 (c : Dev nD) (t : Fin cfg0.N) :
    (tiles m 0 c).after 3 t = tileOut (tile m c 0 t) (tile m c 1 t) (tile m c 2 t) := by dsimp only [tiles]

/-! ## What the body is handed -/

/-- The stacked terms' buffer holds the point's tile (it is fetched at every point). -/
theorem handed0 (c : Dev nD) (t : Fin cfg0.N) (d) : (tiles m 0 c).before 0 t d = tile m c 0 t :=
  ((tiles m 0 c).before_in_eq_fetched 0 rfl (fun _ => rfl) (fun _ _ _ => rfl)
      (fun t => by rw [tiles_after0]; unfold Dat.blockOf tile; rw [tiles_A]; try rfl) t d).trans
    (by unfold Dat.fetched Dat.blockOf tile; rw [tiles_A]; try rfl)
/-- The weights' buffer holds the whole weight array at every point: fetched at the first, left in place after. -/
theorem handed1 (c : Dev nD) (t : Fin cfg0.N) (d) : (tiles m 0 c).before 1 t d = tile m c 1 t :=
  ((tiles m 0 c).before_in_eq_fetched 1 rfl (fun _ => rfl) (fun _ _ _ => rfl)
      (fun t => by rw [tiles_after1]; unfold Dat.blockOf tile; rw [tiles_A]; try rfl) t d).trans
    (by unfold Dat.fetched Dat.blockOf tile; rw [tiles_A]; try rfl)
/-- The bias buffer likewise. -/
theorem handed2 (c : Dev nD) (t : Fin cfg0.N) (d) : (tiles m 0 c).before 2 t d = tile m c 2 t :=
  ((tiles m 0 c).before_in_eq_fetched 2 rfl (fun _ => rfl) (fun _ _ _ => rfl)
      (fun t => by rw [tiles_after2]; unfold Dat.blockOf tile; rw [tiles_A]; try rfl) t d).trans
    (by unfold Dat.fetched Dat.blockOf tile; rw [tiles_A]; try rfl)

/-! ## One grid point -/

/-- Before the body at point `t`: the invariant, the core's dues, the four current staging buffers. -/
def pointPre (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d)))

/-- After it. -/
def pointPost (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t))

/-- The body at point `t`: the inputs' buffers hold the tiles, so the body's run applies; the invariant and the
    dues are not touched. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [handed0, handed1, handed2]
  rw [show (tiles m 0 c).Φ t.succ = (tiles m 0 c).Φ t.castSucc from rfl,
    show (tiles m 0 c).owesAt () t.succ = (tiles m 0 c).owesAt () t.castSucc from rfl,
    tiles_after0, tiles_after1, tiles_after2, tiles_after3]
  iintro ⟨HΦ, Ho, ⟨%d0, H0⟩, ⟨%d1, H1⟩, ⟨%d2, H2⟩, ⟨%d3, H3⟩⟩
  iapply (body_runs c Set.univ (grid0.coords t) _ _ _ _ _ _ _ _ (tile m c 0 t) (tile m c 1 t) (tile m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Every point, in the library's form. -/
theorem every_point (c : Dev nD) : BodyObligation (tiles (F := F) m 0 c) (defs₀ (F := F)) Variants.none () Set.univ := fun t => by
  rw [bigSep_W0, bigSep_W0]
  exact point_runs m c t

/-! ## The whole run -/

set_option backward.isDefEq.respectTransparency.types false in
/-- From any start memory with zero semaphores: every weakly fair execution of @main terminates without a fault;
    each of the kernel's four arrays ends at what the fifty write-backs make of it, every other unscoped buffer at
    what the closing reshape leaves. -/
theorem main_runs : θ_run defs (onTc (τ := τ) (main (F := F))) (s₀ m ρ)
    (Pipeline.FramePost cfgs (tiles m) 0 (atExit m (tiles m))) :=
  Pipeline.θ_run_frame_around cfgs (tiles m) (0 : Fin 1) launch0 defs₀ Variants.none m ρ main
    (hbody := fun c => (every_point m c).loose) (hshare := fun c => (tiles m 0 c).share_full fun _ => rfl)
    (howed := fun _ _ => rfl) (V₀ := entry m) (opss := [hostOps1]) (hsub := post_sub) (hfresh := post_alloc) (hkeep := post_keeps)
    (hmain := main_around m Variants.none) (hA := tiles_A m) (hΦ := fun _ _ => rfl)

/-- What the run's final states say of the argument arrays: the weights are an input array of the launch, which the
    library never changes; the other five are no array of the launch, and neither the 69 lines nor the closing
    reshape writes them. -/
theorem post_keeps_args (r : PUnit × MemSt nD τ sig (Elt F))
    (h : Pipeline.FramePost cfgs (tiles m) 0 (atExit m (tiles m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (atExit_arg0 m (tiles m) c),
   ((h c).2 main_arg1 (Pipeline.mem_restRefs_of main_arg1 (by decide) (by decide))).trans (atExit_arg1 m (tiles m) c),
   ((h c).2 main_arg2 (Pipeline.mem_restRefs_of main_arg2 (by decide) (by decide))).trans (atExit_arg2 m (tiles m) c),
   ((h c).2 main_arg3 (Pipeline.mem_restRefs_of main_arg3 (by decide) (by decide))).trans (atExit_arg3 m (tiles m) c),
   (((h c).1 1).trans ((tiles m 0 c).arrAt_in 1 rfl _)).trans ((tiles_A m c 1).trans (atEntry_arg4 m c)),
   ((h c).2 main_arg5 (Pipeline.mem_restRefs_of main_arg5 (by decide) (by decide))).trans (atExit_arg5 m (tiles m) c)⟩

/-- The argument arrays end as they started. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => post_keeps_args m r h c) (main_runs m ρ)

end Cert.KernelIdeal.Cheb

end
-- ==== Proof.ChebTile.lean ====
/-
  The stored tile, read at one row and one output channel.

  At the exact instance rounding to bf16 is the identity and the matrix unit's product into a zero accumulator is
  the plain sum over the contracted axis. So the value the body stores at row `p`, output channel `q` of its tile
  is

      max( ((((0 + x_0 w_0) + x_1 w_1) + x_2 w_2) + x_3 w_3) + bias[q] , 0 )        at (p, q),

  where `x_j w_j` is the sum over the 64 channels `k` of `x[j, p, k] * w[j, k, q]`: slab `j` of the stacked tile
  against slab `j` of the weights.
-/
import proofs.«177674_j1047972020814_1_alg».proof.Proof.ChebBodyI
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Cheb

open Cert.KernelIdeal Cert.KernelIdeal.Gen
open Idealize.ShloMosaic Idealize.ShloMosaic.ValueIdx

/-! ## The matrix unit's product as a sum

The operand indices of the 4000 x 64 by 64 x 64 product at output (row, column) and contraction index `k` are
(row, k) on the left and (k, column) on the right. -/

theorem prod_lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem prod_lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem prod_rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem prod_rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A 4000 x 64 block times a 64 x 64 matrix into zeros, at (p, q): the sum over `k` of `X[p, k] * M[k, q]`. -/
theorem prod_at {φ₁ φ₂ : FTy} (X : FVec Ideal S4000x64 φ₁) (M : FVec Ideal S64x64 φ₂) (p : Fin 4000) (q : Fin 64) :
    FloatOps.matmul dot_S4000x64_S64x64_S4000x64_1_0_0_1_n_n none X M (constant S4000x64 .f32 0x00000000#32) (ix2 p q)
      = ∑ k : Fin 64, X (ix2 p k) * M (ix2 k q) := by
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact prod_lhs_0 _ _
    | ⟨1, _⟩ => exact (prod_lhs_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (prod_rhs_0 _ _).trans hk
    | ⟨1, _⟩ => exact prod_rhs_1 _ _)
  rw [el, er]

/-! ## The slab loads -/

/-- Slab `j` of the stacked tile, with its unit axis dropped, at (p, k) is the tile at (j, p, k). -/
theorem term_slab0 (x : Vec Ideal S4x4000x64 .f32) (p : Fin 4000) (k : Fin 64) :
    (shapeCast S4000x64 (View.ld x termSlab0) shapeCasts_S1x4000x64_S4000x64 : FVec Ideal S4000x64 .f32) (ix2 p k) = x (ix3 0 p k) := by
  rw [shapeCast_1ab_ab_apply]
  show x (termSlab0.emb (ix3 0 p k)) = x (ix3 0 p k)
  refine congrArg x (funext fun a => Fin.ext ?_)
  match a with
  | ⟨0, _⟩ => show 0 + 1 * 0 = 0; rfl
  | ⟨1, _⟩ => show 0 + 1 * p.val = p.val; omega
  | ⟨2, _⟩ => show 0 + 1 * k.val = k.val; omega
theorem term_slab1 (x : Vec Ideal S4x4000x64 .f32) (p : Fin 4000) (k : Fin 64) :
    (shapeCast S4000x64 (View.ld x termSlab1) shapeCasts_S1x4000x64_S4000x64 : FVec Ideal S4000x64 .f32) (ix2 p k) = x (ix3 1 p k) := by
  rw [shapeCast_1ab_ab_apply]
  show x (termSlab1.emb (ix3 0 p k)) = x (ix3 1 p k)
  refine congrArg x (funext fun a => Fin.ext ?_)
  match a with
  | ⟨0, _⟩ => show 1 + 1 * 0 = 1; rfl
  | ⟨1, _⟩ => show 0 + 1 * p.val = p.val; omega
  | ⟨2, _⟩ => show 0 + 1 * k.val = k.val; omega
theorem term_slab2 (x : Vec Ideal S4x4000x64 .f32) (p : Fin 4000) (k : Fin 64) :
    (shapeCast S4000x64 (View.ld x termSlab2) shapeCasts_S1x4000x64_S4000x64 : FVec Ideal S4000x64 .f32) (ix2 p k) = x (ix3 2 p k) := by
  rw [shapeCast_1ab_ab_apply]
  show x (termSlab2.emb (ix3 0 p k)) = x (ix3 2 p k)
  refine congrArg x (funext fun a => Fin.ext ?_)
  match a with
  | ⟨0, _⟩ => show 2 + 1 * 0 = 2; rfl
  | ⟨1, _⟩ => show 0 + 1 * p.val = p.val; omega
  | ⟨2, _⟩ => show 0 + 1 * k.val = k.val; omega
theorem term_slab3 (x : Vec Ideal S4x4000x64 .f32) (p : Fin 4000) (k : Fin 64) :
    (shapeCast S4000x64 (View.ld x termSlab3) shapeCasts_S1x4000x64_S4000x64 : FVec Ideal S4000x64 .f32) (ix2 p k) = x (ix3 3 p k) := by
  rw [shapeCast_1ab_ab_apply]
  show x (termSlab3.emb (ix3 0 p k)) = x (ix3 3 p k)
  refine congrArg x (funext fun a => Fin.ext ?_)
  match a with
  | ⟨0, _⟩ => show 3 + 1 * 0 = 3; rfl
  | ⟨1, _⟩ => show 0 + 1 * p.val = p.val; omega
  | ⟨2, _⟩ => show 0 + 1 * k.val = k.val; omega

/-- Slab `j` of the weights likewise. -/
theorem filt_slab0 (w : Vec Ideal S4x64x64 .f32) (k q : Fin 64) :
    (shapeCast S64x64 (View.ld w filtSlab0) shapeCasts_S1x64x64_S64x64 : FVec Ideal S64x64 .f32) (ix2 k q) = w (ix3 0 k q) := by
  rw [shapeCast_1ab_ab_apply]
  show w (filtSlab0.emb (ix3 0 k q)) = w (ix3 0 k q)
  refine congrArg w (funext fun a => Fin.ext ?_)
  match a with
  | ⟨0, _⟩ => show 0 + 1 * 0 = 0; rfl
  | ⟨1, _⟩ => show 0 + 1 * k.val = k.val; omega
  | ⟨2, _⟩ => show 0 + 1 * q.val = q.val; omega
theorem filt_slab1 (w : Vec Ideal S4x64x64 .f32) (k q : Fin 64) :
    (shapeCast S64x64 (View.ld w filtSlab1) shapeCasts_S1x64x64_S64x64 : FVec Ideal S64x64 .f32) (ix2 k q) = w (ix3 1 k q) := by
  rw [shapeCast_1ab_ab_apply]
  show w (filtSlab1.emb (ix3 0 k q)) = w (ix3 1 k q)
  refine congrArg w (funext fun a => Fin.ext ?_)
  match a with
  | ⟨0, _⟩ => show 1 + 1 * 0 = 1; rfl
  | ⟨1, _⟩ => show 0 + 1 * k.val = k.val; omega
  | ⟨2, _⟩ => show 0 + 1 * q.val = q.val; omega
theorem filt_slab2 (w : Vec Ideal S4x64x64 .f32) (k q : Fin 64) :
    (shapeCast S64x64 (View.ld w filtSlab2) shapeCasts_S1x64x64_S64x64 : FVec Ideal S64x64 .f32) (ix2 k q) = w (ix3 2 k q) := by
  rw [shapeCast_1ab_ab_apply]
  show w (filtSlab2.emb (ix3 0 k q)) = w (ix3 2 k q)
  refine congrArg w (funext fun a => Fin.ext ?_)
  match a with
  | ⟨0, _⟩ => show 2 + 1 * 0 = 2; rfl
  | ⟨1, _⟩ => show 0 + 1 * k.val = k.val; omega
  | ⟨2, _⟩ => show 0 + 1 * q.val = q.val; omega
theorem filt_slab3 (w : Vec Ideal S4x64x64 .f32) (k q : Fin 64) :
    (shapeCast S64x64 (View.ld w filtSlab3) shapeCasts_S1x64x64_S64x64 : FVec Ideal S64x64 .f32) (ix2 k q) = w (ix3 3 k q) := by
  rw [shapeCast_1ab_ab_apply]
  show w (filtSlab3.emb (ix3 0 k q)) = w (ix3 3 k q)
  refine congrArg w (funext fun a => Fin.ext ?_)
  match a with
  | ⟨0, _⟩ => show 3 + 1 * 0 = 3; rfl
  | ⟨1, _⟩ => show 0 + 1 * k.val = k.val; omega
  | ⟨2, _⟩ => show 0 + 1 * q.val = q.val; omega

/-- The bias row broadcast down the 4000 rows, at (p, q), is the row at (0, q). -/
theorem bias_bcast (b : Vec Ideal S1x64 .f32) (p : Fin 4000) (q : Fin 64) :
    (broadcastTo S4000x64 (shapeCast S1x64 (View.ld b biasAll) shapeCasts_S1x64_S1x64 : FVec Ideal S1x64 .f32) broadcasts_S1x64_S4000x64 : FVec Ideal S4000x64 .f32) (ix2 p q) = b (ix2 0 q) := by
  rw [broadcastTo_1b_ab_apply]
  refine (shapeCast_apply (View.ld b biasAll) shapeCasts_S1x64_S1x64 (ix2 0 q) (ix2 0 q) rfl).trans ?_
  show b (biasAll.emb (ix2 0 q)) = b (ix2 0 q)
  refine congrArg b (funext fun a => Fin.ext ?_)
  match a with
  | ⟨0, _⟩ => show 0 + 1 * 0 = 0; rfl
  | ⟨1, _⟩ => show 0 + 1 * q.val = q.val; omega

/-! ## The stored value -/

theorem tileVal_at (x : Vec Ideal S4x4000x64 .f32) (w : Vec Ideal S4x64x64 .f32) (b : Vec Ideal S1x64 .f32) (p : Fin 4000) (q : Fin 64) :
    tileVal (F := Ideal) x w b (ix2 p q)
      = max ((((((0 : EReal) + ∑ k : Fin 64, x (ix3 0 p k) * w (ix3 0 k q)) + ∑ k : Fin 64, x (ix3 1 p k) * w (ix3 1 k q))
          + ∑ k : Fin 64, x (ix3 2 p k) * w (ix3 2 k q)) + ∑ k : Fin 64, x (ix3 3 p k) * w (ix3 3 k q)) + b (ix2 0 q)) 0 := by
  unfold tileVal k0_pay1 k0_pay2 k0_pay3 k0_pay4
  simp only [maximumf_apply, addf_apply, broadcast_apply, matmul, prod_at, truncf_apply,
    term_slab0, term_slab1, term_slab2, term_slab3, filt_slab0, filt_slab1, filt_slab2, filt_slab3, bias_bcast,
    Ideal.ofBits_def, Ideal.ofBits_zero_f32]

end Cert.KernelIdeal.Cheb

end
-- ==== Proof.ChebTerms.lean ====
/-
  What the 69 host lines leave for the launch.

  The lines before the launch compute the Chebyshev terms T_1 = L x, T_2 = 2 L T_1 - x, T_3 = 2 L T_2 - T_1 (L the
  sparse product: gather the source rows, scale by the edge values, scatter-add into the destination rows), lay the
  four terms x, T_1, T_2, T_3 side by side along a new leading axis and merge batch and node into one row axis, and
  reshape the bias to one row. The reference program computes T_1, T_2, T_3 by the very same lines, so each of these
  buffers is stated here against the reference's own stage functions of the six arguments; the sparse product is
  never opened. All of it holds at every float instance.
-/
import proofs.«177674_j1047972020814_1_alg».proof.Proof.ChebHostI
import proofs.«177674_j1047972020814_1_alg».proof.Proof.Gen.ReferenceIdeal.Read
import Idealize.ShloMosaic.Lib.StableHlo.Run

set_option maxRecDepth 16384

noncomputable section

namespace Cert.KernelIdeal.Cheb

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ)

/-- The reference's T_1, T_2, T_3 at this program's start contents. -/
abbrev term1 (c : Dev nD) : FVec F S4x50000x64 .f32 := Cert.ReferenceIdeal.Read.val_main_v17 (F := F) (m ((c : Thread nD τ).loc main_arg0)) (m ((c : Thread nD τ).loc main_arg1)) (m ((c : Thread nD τ).loc main_arg2)) (m ((c : Thread nD τ).loc main_arg3))
abbrev term2 (c : Dev nD) : FVec F S4x50000x64 .f32 := Cert.ReferenceIdeal.Read.val_main_v39 (F := F) (m ((c : Thread nD τ).loc main_arg0)) (m ((c : Thread nD τ).loc main_arg1)) (m ((c : Thread nD τ).loc main_arg2)) (m ((c : Thread nD τ).loc main_arg3))
abbrev term3 (c : Dev nD) : FVec F S4x50000x64 .f32 := Cert.ReferenceIdeal.Read.val_main_v61 (F := F) (m ((c : Thread nD τ).loc main_arg0)) (m ((c : Thread nD τ).loc main_arg1)) (m ((c : Thread nD τ).loc main_arg2)) (m ((c : Thread nD τ).loc main_arg3))

set_option maxHeartbeats 4000000 in
/-- The first sparse product. -/
theorem entry_term1 (c : Dev nD) : atEntry m c main_v14 = term1 m c := by
  show StableHlo.after hostOps0 (fun b => m (c, b)) (Proc.devRef .tc main_v14) = _
  after_results
  rfl

set_option maxHeartbeats 4000000 in
/-- Twice the product of the first, less the input. -/
theorem entry_term2 (c : Dev nD) : atEntry m c main_v32 = term2 m c := by
  show StableHlo.after hostOps0 (fun b => m (c, b)) (Proc.devRef .tc main_v32) = _
  after_results
  rfl

set_option maxHeartbeats 8000000 in
/-- Twice the product of the second, less the first. -/
theorem entry_term3 (c : Dev nD) : atEntry m c main_v50 = term3 m c := by
  show StableHlo.after hostOps0 (fun b => m (c, b)) (Proc.devRef .tc main_v50) = _
  after_results
  rfl

/-- One term with a leading unit axis. -/
abbrev lead1 (T : FVec F S4x50000x64 .f32) : FVec F S1x4x50000x64 .f32 :=
  broadcastInDim S1x4x50000x64 ![1, 2, 3] bcast_S4x50000x64_S1x4x50000x64_1_2_3 T

/-- The four terms along a new leading axis, batch and node then merged into 200000 rows. -/
def stackOf (T0 T1 T2 T3 : FVec F S4x50000x64 .f32) : FVec F S4x200000x64 .f32 :=
  shapeCast S4x200000x64
    (concatenate S4x4x50000x64 0 [⟨S1x4x50000x64, lead1 T0⟩, ⟨S1x4x50000x64, lead1 T1⟩, ⟨S1x4x50000x64, lead1 T2⟩, ⟨S1x4x50000x64, lead1 T3⟩]
      concatenates_S1x4x50000x64_S1x4x50000x64_S1x4x50000x64_S1x4x50000x64_S4x4x50000x64_d0)
    shapeCasts_S4x4x50000x64_S4x200000x64

set_option maxHeartbeats 16000000 in
/-- The kernel's first operand. -/
theorem entry_stack (c : Dev nD) :
    atEntry m c main_v56 = stackOf (m ((c : Thread nD τ).loc main_arg0)) (term1 m c) (term2 m c) (term3 m c) := by
  show StableHlo.after hostOps0 (fun b => m (c, b)) (Proc.devRef .tc main_v56) = _
  after_results
  rfl

set_option maxHeartbeats 4000000 in
/-- The kernel's third operand: the bias as one row. -/
theorem entry_bias (c : Dev nD) :
    atEntry m c main_v57 = shapeCast S1x64 (m ((c : Thread nD τ).loc main_arg5)) shapeCasts_S64_S1x64 := by
  show StableHlo.after hostOps0 (fun b => m (c, b)) (Proc.devRef .tc main_v57) = _
  after_results
  rfl

end Cert.KernelIdeal.Cheb

end
-- ==== Proof.ChebLayout.lean ====
/-
  The launch's operands and the program's result, read at an index.

  Three facts about arrangement only (they hold for any element type):
  * the stacked operand at (term j, row b * 50000 + n, channel k) is term j at (batch b, node n, channel k): the four
    terms lie along a new leading axis, and merging batch and node keeps row-major position;
  * the bias row at (0, q) is the bias at q;
  * a 200000 x 64 array reshaped to 4 x 50000 x 64, at (b, n, o), is the array at (row b * 50000 + n, o).
-/
import proofs.«177674_j1047972020814_1_alg».proof.Proof.ChebTerms
import Idealize.ShloMosaic.Lib.ValueIdx
import Idealize.ShloMosaic.Lib.ValueLayout
import Idealize.ShloMosaic.Lib.Pipeline.Value

set_option maxRecDepth 16384

noncomputable section

namespace Cert.KernelIdeal.Cheb

open Cert.KernelIdeal Cert.KernelIdeal.Gen
open Idealize.ShloMosaic Idealize.ShloMosaic.ValueIdx

variable {F : FTy → Type} [FloatOps F]

/-- A term under a new leading unit axis, at (0, b, n, k). -/
theorem lead1_at (T : FVec F S4x50000x64 .f32) (b : Fin 4) (n : Fin 50000) (k : Fin 64) :
    lead1 T (ix4 0 b n k) = T (ix3 b n k) :=
  broadcastInDim_apply _ bcast_S4x50000x64_S1x4x50000x64_1_2_3 T (ix4 0 b n k) (ix3 b n k) (fun a => match a with
    | ⟨0, _⟩ => by show b.val = if (4 : Nat) = 1 then 0 else b.val; rw [if_neg (by decide)]
    | ⟨1, _⟩ => by show n.val = if (50000 : Nat) = 1 then 0 else n.val; rw [if_neg (by decide)]
    | ⟨2, _⟩ => by show k.val = if (64 : Nat) = 1 then 0 else k.val; rw [if_neg (by decide)])

/-! ## The stacked operand, term by term -/

theorem stackOf_at0 (T0 T1 T2 T3 : FVec F S4x50000x64 .f32) (b : Fin 4) (n : Fin 50000) (k : Fin 64) :
    stackOf T0 T1 T2 T3 (ix3 0 ⟨b.val * 50000 + n.val, by have := b.isLt; have := n.isLt; omega⟩ k) = T0 (ix3 b n k) := by
  unfold stackOf
  refine (shapeCast_apply _ shapeCasts_S4x4x50000x64_S4x200000x64 _ (ix4 0 b n k) ?_).trans ?_
  · rw [Shape.rowMajor_val_four, Shape.rowMajor_val_three]
    show ((0 * 4 + b.val) * 50000 + n.val) * 64 + k.val = (0 * 200000 + (b.val * 50000 + n.val)) * 64 + k.val
    omega
  refine (concatenate_apply_piece (α := F .f32) 0 [⟨S1x4x50000x64, lead1 T0⟩, ⟨S1x4x50000x64, lead1 T1⟩, ⟨S1x4x50000x64, lead1 T2⟩, ⟨S1x4x50000x64, lead1 T3⟩]
      concatenates_S1x4x50000x64_S1x4x50000x64_S1x4x50000x64_S1x4x50000x64_S4x4x50000x64_d0 (ix4 0 b n k) 0 (by show 0 < 4; decide) S1x4x50000x64 (lead1 T0) rfl rfl 0 rfl (ix4 0 b n k) ?_ ?_).trans ?_
  · intro a ha
    match a with
    | ⟨0, _⟩ => exact absurd rfl ha
    | ⟨1, _⟩ => rfl
    | ⟨2, _⟩ => rfl
    | ⟨3, _⟩ => rfl
  · show 0 + 0 = 0; rfl
  · exact lead1_at T0 b n k

theorem stackOf_at1 (T0 T1 T2 T3 : FVec F S4x50000x64 .f32) (b : Fin 4) (n : Fin 50000) (k : Fin 64) :
    stackOf T0 T1 T2 T3 (ix3 1 ⟨b.val * 50000 + n.val, by have := b.isLt; have := n.isLt; omega⟩ k) = T1 (ix3 b n k) := by
  unfold stackOf
  refine (shapeCast_apply _ shapeCasts_S4x4x50000x64_S4x200000x64 _ (ix4 1 b n k) ?_).trans ?_
  · rw [Shape.rowMajor_val_four, Shape.rowMajor_val_three]
    show ((1 * 4 + b.val) * 50000 + n.val) * 64 + k.val = (1 * 200000 + (b.val * 50000 + n.val)) * 64 + k.val
    omega
  refine (concatenate_apply_piece (α := F .f32) 0 [⟨S1x4x50000x64, lead1 T0⟩, ⟨S1x4x50000x64, lead1 T1⟩, ⟨S1x4x50000x64, lead1 T2⟩, ⟨S1x4x50000x64, lead1 T3⟩]
      concatenates_S1x4x50000x64_S1x4x50000x64_S1x4x50000x64_S1x4x50000x64_S4x4x50000x64_d0 (ix4 1 b n k) 1 (by show 1 < 4; decide) S1x4x50000x64 (lead1 T1) rfl rfl 1 rfl (ix4 0 b n k) ?_ ?_).trans ?_
  · intro a ha
    match a with
    | ⟨0, _⟩ => exact absurd rfl ha
    | ⟨1, _⟩ => rfl
    | ⟨2, _⟩ => rfl
    | ⟨3, _⟩ => rfl
  · show 1 + 0 = 1; rfl
  · exact lead1_at T1 b n k

theorem stackOf_at2 (T0 T1 T2 T3 : FVec F S4x50000x64 .f32) (b : Fin 4) (n : Fin 50000) (k : Fin 64) :
    stackOf T0 T1 T2 T3 (ix3 2 ⟨b.val * 50000 + n.val, by have := b.isLt; have := n.isLt; omega⟩ k) = T2 (ix3 b n k) := by
  unfold stackOf
  refine (shapeCast_apply _ shapeCasts_S4x4x50000x64_S4x200000x64 _ (ix4 2 b n k) ?_).trans ?_
  · rw [Shape.rowMajor_val_four, Shape.rowMajor_val_three]
    show ((2 * 4 + b.val) * 50000 + n.val) * 64 + k.val = (2 * 200000 + (b.val * 50000 + n.val)) * 64 + k.val
    omega
  refine (concatenate_apply_piece (α := F .f32) 0 [⟨S1x4x50000x64, lead1 T0⟩, ⟨S1x4x50000x64, lead1 T1⟩, ⟨S1x4x50000x64, lead1 T2⟩, ⟨S1x4x50000x64, lead1 T3⟩]
      concatenates_S1x4x50000x64_S1x4x50000x64_S1x4x50000x64_S1x4x50000x64_S4x4x50000x64_d0 (ix4 2 b n k) 2 (by show 2 < 4; decide) S1x4x50000x64 (lead1 T2) rfl rfl 2 rfl (ix4 0 b n k) ?_ ?_).trans ?_
  · intro a ha
    match a with
    | ⟨0, _⟩ => exact absurd rfl ha
    | ⟨1, _⟩ => rfl
    | ⟨2, _⟩ => rfl
    | ⟨3, _⟩ => rfl
  · show 2 + 0 = 2; rfl
  · exact lead1_at T2 b n k

theorem stackOf_at3 (T0 T1 T2 T3 : FVec F S4x50000x64 .f32) (b : Fin 4) (n : Fin 50000) (k : Fin 64) :
    stackOf T0 T1 T2 T3 (ix3 3 ⟨b.val * 50000 + n.val, by have := b.isLt; have := n.isLt; omega⟩ k) = T3 (ix3 b n k) := by
  unfold stackOf
  refine (shapeCast_apply _ shapeCasts_S4x4x50000x64_S4x200000x64 _ (ix4 3 b n k) ?_).trans ?_
  · rw [Shape.rowMajor_val_four, Shape.rowMajor_val_three]
    show ((3 * 4 + b.val) * 50000 + n.val) * 64 + k.val = (3 * 200000 + (b.val * 50000 + n.val)) * 64 + k.val
    omega
  refine (concatenate_apply_piece (α := F .f32) 0 [⟨S1x4x50000x64, lead1 T0⟩, ⟨S1x4x50000x64, lead1 T1⟩, ⟨S1x4x50000x64, lead1 T2⟩, ⟨S1x4x50000x64, lead1 T3⟩]
      concatenates_S1x4x50000x64_S1x4x50000x64_S1x4x50000x64_S1x4x50000x64_S4x4x50000x64_d0 (ix4 3 b n k) 3 (by show 3 < 4; decide) S1x4x50000x64 (lead1 T3) rfl rfl 3 rfl (ix4 0 b n k) ?_ ?_).trans ?_
  · intro a ha
    match a with
    | ⟨0, _⟩ => exact absurd rfl ha
    | ⟨1, _⟩ => rfl
    | ⟨2, _⟩ => rfl
    | ⟨3, _⟩ => rfl
  · show 3 + 0 = 3; rfl
  · exact lead1_at T3 b n k

/-! ## The bias row and the final reshape -/

theorem biasRow_at {α : Type} (β : S64.Idx → α) (q : Fin 64) :
    shapeCast S1x64 β shapeCasts_S64_S1x64 (ix2 0 q) = β (ix1 q) := by
  refine (shapeCast_apply β shapeCasts_S64_S1x64 (ix2 0 q) (ix1 q) ?_).trans rfl
  rw [Shape.rowMajor_val_one, Shape.rowMajor_val_two]
  show q.val = 0 * 64 + q.val
  omega

theorem unmerge_at {α : Type} (R : S200000x64.Idx → α) (b : Fin 4) (n : Fin 50000) (o : Fin 64) :
    shapeCast S4x50000x64 R shapeCasts_S200000x64_S4x50000x64 (ix3 b n o)
      = R (ix2 ⟨b.val * 50000 + n.val, by have := b.isLt; have := n.isLt; omega⟩ o) := by
  refine (shapeCast_apply R shapeCasts_S200000x64_S4x50000x64 (ix3 b n o) (ix2 ⟨b.val * 50000 + n.val, by have := b.isLt; have := n.isLt; omega⟩ o) ?_).trans rfl
  rw [Shape.rowMajor_val_two, Shape.rowMajor_val_three]
  show (b.val * 50000 + n.val) * 64 + o.val = (b.val * 50000 + n.val) * 64 + o.val
  rfl

end Cert.KernelIdeal.Cheb

end
-- ==== Proof.ChebSpec.lean ====
/-
  The Chebyshev filter as one function of its inputs, over the extended reals.

  Given the four Chebyshev terms T_0 … T_3 (each 4 x 50000 x 64: batch, node, input channel), the four filter
  matrices W_0 … W_3 (64 x 64: input channel, output channel) and a bias row, the output at batch `b`, node `n`,
  output channel `o` is

      max( ((T_0 W_0 + T_1 W_1) + T_2 W_2) + T_3 W_3 + bias[o] , 0 )          at (b, n, o),

  each product `T_k W_k` the sum over the 64 input channels of `T_k[b, n, c] * W_k[c, o]`. The grouping of the
  four products is the one both programs use, so no law of the extended reals beyond `0 + a = a` is needed to
  meet either of them, and the inputs may be any extended reals.
-/
import Idealize.ShloMosaic.PureOps.Ideal
import Idealize.ShloMosaic.Lib.ValueIdx

noncomputable section

namespace Cert.ChebSpec

open Idealize.ShloMosaic Idealize.ShloMosaic.ValueIdx

/-- batch x node x channel -/
abbrev Terms : Shape := ⟨3, ![4, 50000, 64]⟩
/-- degree x input channel x output channel -/
abbrev Filters : Shape := ⟨3, ![4, 64, 64]⟩
abbrev BiasRow : Shape := ⟨1, ![64]⟩

/-- One term through its filter: the sum over input channels. -/
def proj (T : FVec Ideal Terms .f32) (W : FVec Ideal Filters .f32) (k : Fin 4) (b : Fin 4) (n : Fin 50000) (o : Fin 64) : EReal :=
  ∑ c : Fin 64, T (ix3 b n c) * W (ix3 k c o)

/-- The filter's output at one batch, node and output channel. -/
def outAt (T0 T1 T2 T3 : FVec Ideal Terms .f32) (W : FVec Ideal Filters .f32) (β : FVec Ideal BiasRow .f32)
    (b : Fin 4) (n : Fin 50000) (o : Fin 64) : EReal :=
  max ((((proj T0 W 0 b n o + proj T1 W 1 b n o) + proj T2 W 2 b n o) + proj T3 W 3 b n o) + β (ix1 o)) 0

/-- The whole output array. -/
def out (T0 T1 T2 T3 : FVec Ideal Terms .f32) (W : FVec Ideal Filters .f32) (β : FVec Ideal BiasRow .f32) : FVec Ideal Terms .f32 :=
  fun i => outAt T0 T1 T2 T3 W β (i 0) (i 1) (i 2)

theorem out_ix3 (T0 T1 T2 T3 : FVec Ideal Terms .f32) (W : FVec Ideal Filters .f32) (β : FVec Ideal BiasRow .f32)
    (b : Fin 4) (n : Fin 50000) (o : Fin 64) : out T0 T1 T2 T3 W β (ix3 b n o) = outAt T0 T1 T2 T3 W β b n o := rfl

end Cert.ChebSpec

end
-- ==== Proof.ChebValue.lean ====
/-
  What the filter kernel's program computes, over the extended reals.

  The fifty tiles fit together: what grid point `t` writes back is rows `[4000 t, 4000 t + 4000)` of ONE function
  `rows` of the stacked terms, the weights and the bias row as the launch finds them, and every row of the output
  lies in exactly one such range, so after the launch the output array is `rows`. The closing reshape splits the row
  axis back into batch and node; the stacked operand at row `b * 50000 + n` is the four terms at (batch b, node n). So
  the program's result is the filter function `ChebSpec.out` of the input, the three later terms, the weights and
  the bias, up to the leading `0 +` the kernel's accumulator starts from.
-/
import proofs.«177674_j1047972020814_1_alg».proof.Proof.ChebFrameI
import proofs.«177674_j1047972020814_1_alg».proof.Proof.ChebTile
import proofs.«177674_j1047972020814_1_alg».proof.Proof.ChebLayout
import proofs.«177674_j1047972020814_1_alg».proof.Proof.ChebSpec
import Idealize.ShloMosaic.Lib.Pipeline.Value
import Idealize.ShloMosaic.Lib.StableHlo.Run

set_option maxRecDepth 16384

noncomputable section

namespace Cert.KernelIdeal.Cheb

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The index maps over the fifty points

The stacked terms' block moves along the row axis with the point; the weights' and the bias' blocks never move;
the output's block moves along the row axis with the point. -/

theorem index_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 50 := Nat.lt_of_lt_of_eq t.isLt N_0

/-- Row `p` of tile `t`, as a row of the whole array. -/
def rowOf (t : Fin cfg0.N) (p : Fin 4000) : Fin 200000 :=
  ⟨t.val * 4000 + p.val, by have := point_lt t; have := p.isLt; omega⟩

/-! ## The launch's three input arrays, by their literal types -/

abbrev stk (c : Dev nD) : Vec Ideal S4x200000x64 .f32 := atEntry m c main_v56
abbrev wts (c : Dev nD) : Vec Ideal S4x64x64 .f32 := atEntry m c main_arg4
abbrev brow (c : Dev nD) : Vec Ideal S1x64 .f32 := atEntry m c main_v57

/-- Reading the stacked terms' block at point `t` out of ANY array of its shape: rows `[4000 t, 4000 t + 4000)`. -/
theorem read_blk0 (c : Dev nD) (A : Buf (Elt Ideal) ((cfg0.win 0).arr.view.loc (c.tc : Thread nD τ))) (t : Fin cfg0.N)
    (j : Fin 4) (p : Fin 4000) (k : Fin 64) :
    ((cfg0.win 0).blk t).view.read (Elt Ideal) A (ix3 j p k) = (A : Vec Ideal S4x200000x64 .f32) (ix3 j (rowOf t p) k) := by
  show (A : Vec Ideal S4x200000x64 .f32) (((cfg0.win 0).blk t).view.emb (ix3 j p k)) = (A : Vec Ideal S4x200000x64 .f32) (ix3 j (rowOf t p) k)
  obtain ⟨e0, e1, e2, -⟩ := index_facts t
  refine congrArg _ (funext fun a => Fin.ext ?_)
  match a with
  | ⟨0, _⟩ => show win0_0.index t (0 : Fin 3) * 4 + 1 * j.val = j.val; omega
  | ⟨1, _⟩ => show win0_0.index t (1 : Fin 3) * 4000 + 1 * p.val = t.val * 4000 + p.val; omega
  | ⟨2, _⟩ => show win0_0.index t (2 : Fin 3) * 64 + 1 * k.val = k.val; omega

/-- The weights' block is the whole array. -/
theorem read_blk1 (c : Dev nD) (A : Buf (Elt Ideal) ((cfg0.win 1).arr.view.loc (c.tc : Thread nD τ))) (t : Fin cfg0.N)
    (j : Fin 4) (k q : Fin 64) :
    ((cfg0.win 1).blk t).view.read (Elt Ideal) A (ix3 j k q) = (A : Vec Ideal S4x64x64 .f32) (ix3 j k q) := by
  show (A : Vec Ideal S4x64x64 .f32) (((cfg0.win 1).blk t).view.emb (ix3 j k q)) = (A : Vec Ideal S4x64x64 .f32) (ix3 j k q)
  obtain ⟨-, -, -, e3, e4, e5, -⟩ := index_facts t
  refine congrArg _ (funext fun a => Fin.ext ?_)
  match a with
  | ⟨0, _⟩ => show win0_1.index t (0 : Fin 3) * 4 + 1 * j.val = j.val; omega
  | ⟨1, _⟩ => show win0_1.index t (1 : Fin 3) * 64 + 1 * k.val = k.val; omega
  | ⟨2, _⟩ => show win0_1.index t (2 : Fin 3) * 64 + 1 * q.val = q.val; omega

/-- The bias' block is the whole row. -/
theorem read_blk2 (c : Dev nD) (A : Buf (Elt Ideal) ((cfg0.win 2).arr.view.loc (c.tc : Thread nD τ))) (t : Fin cfg0.N) (q : Fin 64) :
    ((cfg0.win 2).blk t).view.read (Elt Ideal) A (ix2 0 q) = (A : Vec Ideal S1x64 .f32) (ix2 0 q) := by
  show (A : Vec Ideal S1x64 .f32) (((cfg0.win 2).blk t).view.emb (ix2 0 q)) = (A : Vec Ideal S1x64 .f32) (ix2 0 q)
  obtain ⟨-, -, -, -, -, -, e6, e7, -⟩ := index_facts t
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- The stacked terms' tile at point `t`: rows `[4000 t, 4000 t + 4000)`, all terms and channels. -/
theorem tile0_at (c : Dev nD) (t : Fin cfg0.N) (j : Fin 4) (p : Fin 4000) (k : Fin 64) :
    tile m c 0 t (ix3 j p k) = stk m c (ix3 j (rowOf t p) k) := by
  unfold tile
  exact read_blk0 c _ t j p k

/-- The weights' tile is the whole weight array. -/
theorem tile1_at (c : Dev nD) (t : Fin cfg0.N) (j : Fin 4) (k q : Fin 64) :
    tile m c 1 t (ix3 j k q) = wts m c (ix3 j k q) := by
  unfold tile
  exact read_blk1 c _ t j k q

/-- The bias' tile is the whole bias row. -/
theorem tile2_at (c : Dev nD) (t : Fin cfg0.N) (q : Fin 64) :
    tile m c 2 t (ix2 0 q) = brow m c (ix2 0 q) := by
  unfold tile
  exact read_blk2 c _ t q

/-- The output's tile at point `t` sits at rows `[4000 t, 4000 t + 4000)`. -/
theorem out_tile_at (t : Fin cfg0.N) (p : Fin 4000) (q : Fin 64) :
    ((cfg0.win 3).blk t).view.emb (ix2 p q) = (ix2 (rowOf t p) q : S200000x64.Idx) := by
  obtain ⟨-, -, -, -, -, -, -, -, e8, e9⟩ := index_facts t
  refine funext fun a => Fin.ext ?_
  match a with
  | ⟨0, _⟩ => show win0_3.index t (0 : Fin 2) * 4000 + 1 * p.val = t.val * 4000 + p.val; omega
  | ⟨1, _⟩ => show win0_3.index t (1 : Fin 2) * 64 + 1 * q.val = q.val; omega

/-! ## The output array as one function of the launch's inputs -/

/-- Row `r`, output channel `q`: the four terms' rows through their filters, summed from the left onto the
    accumulator's zero, plus the bias, clamped at zero. -/
def rowsAt (S : Vec Ideal S4x200000x64 .f32) (W : Vec Ideal S4x64x64 .f32) (B : Vec Ideal S1x64 .f32) (r : Fin 200000) (q : Fin 64) : EReal :=
  max ((((((0 : EReal) + ∑ k : Fin 64, S (ix3 0 r k) * W (ix3 0 k q)) + ∑ k : Fin 64, S (ix3 1 r k) * W (ix3 1 k q))
    + ∑ k : Fin 64, S (ix3 2 r k) * W (ix3 2 k q)) + ∑ k : Fin 64, S (ix3 3 r k) * W (ix3 3 k q)) + B (ix2 0 q)) 0

def rows (S : Vec Ideal S4x200000x64 .f32) (W : Vec Ideal S4x64x64 .f32) (B : Vec Ideal S1x64 .f32) : Vec Ideal S200000x64 .f32 :=
  fun i => rowsAt S W B (i 0) (i 1)

theorem zero2 : (![0, 0] : Fin 2 → Nat) = fun _ => 0 := funext fun a => by fin_cases a <;> rfl

/-- What point `t` writes back is tile `t` of `rows`. -/
theorem written_tile (c : Dev nD) (t : Fin cfg0.N) :
    (tiles m 0 c).flushed 3 t = ((cfg0.win 3).blk t).view.read (Elt Ideal) (rows (stk m c) (wts m c) (brow m c)) := by
  show (cfg0.win 3).cut (grid0.coords t) ((tiles m 0 c).after 3 t) = _
  rw [tiles_after3]
  unfold tileOut
  rw [View.canon_unit_zero zero2]
  refine funext fun (y : S4000x64.Idx) => ?_
  obtain ⟨p, q, rfl⟩ : ∃ (p : Fin 4000) (q : Fin 64), y = ix2 p q := ⟨y 0, y 1, eq_ix2 y⟩
  show tileVal (F := Ideal) (tile m c 0 t) (tile m c 1 t) (tile m c 2 t) (ix2 p q)
    = rows (stk m c) (wts m c) (brow m c) (((cfg0.win 3).blk t).view.emb (ix2 p q))
  refine (tileVal_at (tile m c 0 t) (tile m c 1 t) (tile m c 2 t) p q).trans ?_
  rw [out_tile_at]
  show _ = rowsAt (stk m c) (wts m c) (brow m c) (rowOf t p) q
  unfold rowsAt
  simp only [tile0_at, tile1_at, tile2_at]

/-- An index of the output array is in tile `t` iff its row is in the tile's range. -/
theorem mem_tile (t : Fin cfg0.N) (i : S200000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v58).slice (win0_3.rect t)).set ↔ _
  rw [View.set_slice_whole, Rect.mem_set_unit]
  exact Iff.rfl

/-- Every row is written: row `r` at point `r / 4000`. -/
theorem every_row_written (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : cfg0.N = 50 := N_0
  let t : Fin cfg0.N := ⟨(i 0).val / 4000, by rw [hN]; omega⟩
  have ht : t.val = (i 0).val / 4000 := rfl
  obtain ⟨-, -, -, -, -, -, -, -, e8, e9⟩ := index_facts t
  refine ⟨t, flush0_3 t, ?_⟩
  rw [mem_tile]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- After the launch the output array is `rows`. -/
theorem out_rows (c : Dev nD) : (tiles m 0 c).arrAt 3 cfg0.N = rows (stk m c) (wts m c) (brow m c) :=
  (tiles m 0 c).arrAt_eq_of_cover 3 _ (fun t _ => written_tile m c t) every_row_written

/-! ## The program's result -/

/-- The closing reshape of the output array. -/
theorem result_buffer (c : Dev nD) :
    atExit m (tiles m) c main_v59 = shapeCast S4x50000x64 (rows (stk m c) (wts m c) (brow m c)) shapeCasts_S200000x64_S4x50000x64 := by
  unfold atExit Pipeline.afterTail₀
  show StableHlo.after hostOps1 _ (Proc.devRef .tc main_v59) = _
  after_results
  have hw : Pipeline.withArrays (cfgs 0).spec c (entry m c) (fun w => (tiles m 0 c).arrAt w (cfgs 0).N) (Proc.devRef .tc main_v58)
      = rows (stk m c) (wts m c) (brow m c) :=
    (Pipeline.withArrays_arr spec0 launch0.win.arr_inj c (entry m c) (fun w => (tiles m 0 c).arrAt w cfg0.N) 3).trans (out_rows m c)
  rw [hw]
  rfl

/-- The program's result at (batch, node, output channel) is the filter function there: row `b * 50000 + n` of the
    stacked operand holds the four terms at (b, n), and `0 + a = a`. -/
theorem result_at (c : Dev nD) (b : Fin 4) (n : Fin 50000) (o : Fin 64) :
    (atExit m (tiles m) c main_v59 : Vec Ideal S4x50000x64 .f32) (ix3 b n o)
      = ChebSpec.outAt (m ((c.tc : Thread nD τ).loc main_arg0)) (term1 m c) (term2 m c) (term3 m c) (m ((c.tc : Thread nD τ).loc main_arg4)) (m ((c.tc : Thread nD τ).loc main_arg5)) b n o := by
  rw [result_buffer, unmerge_at]
  show rowsAt (stk m c) (wts m c) (brow m c) ⟨b.val * 50000 + n.val, _⟩ o = _
  have hs : stk m c = stackOf (m ((c.tc : Thread nD τ).loc main_arg0)) (term1 m c) (term2 m c) (term3 m c) := entry_stack m c
  have hwt : wts m c = (m ((c.tc : Thread nD τ).loc main_arg4)) := atEntry_arg4 m c
  have hb : brow m c = shapeCast S1x64 (m ((c.tc : Thread nD τ).loc main_arg5)) shapeCasts_S64_S1x64 := entry_bias m c
  rw [hs, hwt, hb]
  unfold rowsAt ChebSpec.outAt ChebSpec.proj
  rw [zero_add]
  simp only [stackOf_at0, stackOf_at1, stackOf_at2, stackOf_at3, biasRow_at]

/-- The whole result array is the filter function. -/
theorem result_is_spec (c : Dev nD) :
    atExit m (tiles m) c main_v59
      = ChebSpec.out (m ((c.tc : Thread nD τ).loc main_arg0)) (term1 m c) (term2 m c) (term3 m c) (m ((c.tc : Thread nD τ).loc main_arg4)) (m ((c.tc : Thread nD τ).loc main_arg5)) := by
  refine funext fun (i : S4x50000x64.Idx) => ?_
  obtain ⟨b, n, o, rfl⟩ : ∃ (b : Fin 4) (n : Fin 50000) (o : Fin 64), i = ix3 b n o := ⟨i 0, i 1, i 2, eq_ix3 i⟩
  exact (result_at m c b n o).trans (ChebSpec.out_ix3 _ _ _ _ _ _ b n o).symm

/-- Every weakly fair execution of the idealized kernel's program ends with its result at the filter function of
    the input, the three later terms, the weights and the bias, and the arguments as they started. -/
theorem kernel_value : θ_run defs (onTc (τ := τ) (main (F := Ideal))) ⟨m, fun _ => 0, ρ⟩ (fun r => ∀ c : Dev nD,
      r.2.mem ((c.tc : Thread nD τ).loc main_v59)
        = ChebSpec.out (m ((c.tc : Thread nD τ).loc main_arg0)) (term1 m c) (term2 m c) (term3 m c) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v59 (Pipeline.mem_restRefs_of main_v59 (by decide) (by decide))).trans (result_is_spec m c),
     post_keeps_args m r h c⟩) (main_runs m ρ)

end Cert.KernelIdeal.Cheb

end
-- ==== Proof.ChebRef.lean ====
/-
  The reference computes the filter function.

  Its program applies, term by term, `dot_general` over the channel axis with the k-th slab of the weights (a slice
  and a reshape), adds the four products from the left, adds the bias broadcast over batch and node, and clamps at
  zero through `relu`. Read one stage at a time at an index (batch, node, output channel), that is
  `ChebSpec.outAt` of the input, the three later Chebyshev terms as the program's own host lines compute them
  (the stages `val_main_v17`, `val_main_v39`, `val_main_v61`: the sparse products, kept closed), the weights and
  the bias.
-/
import proofs.«177674_j1047972020814_1_alg».proof.Proof.Gen.ReferenceIdeal.Read
import proofs.«177674_j1047972020814_1_alg».proof.Proof.ChebSpec

noncomputable section

namespace Cert.ReferenceIdeal.ChebRef

open Cert.ReferenceIdeal Cert.ReferenceIdeal.Gen Cert.ReferenceIdeal.Read
open Idealize.ShloMosaic Idealize.ShloMosaic.ValueIdx

/-! ## Each term through its filter

The left operand is read at (batch, node, c), the right at (c, output channel) of the k-th slab: the slice adds `k`
on the leading axis, and the reshape from 1 x 64 x 64 keeps row-major position, `(c * 64 + o) / 64 % 64 = c`. -/

theorem proj0 (x0 : FVec Ideal S4x50000x64 .f32) (x1 x2 : IVec S800000 32) (x3 : FVec Ideal S800000 .f32) (x4 : FVec Ideal S4x64x64 .f32)
    (b : Fin 4) (n : Fin 50000) (o : Fin 64) :
    val_main_v2 (F := Ideal) x0 x4 (ix3 b n o) = ChebSpec.proj x0 x4 0 b n o := by
  rw [val_main_v2_apply]; unfold ChebSpec.proj
  refine Finset.sum_congr rfl fun c _ => ?_
  rw [val_main_v1_apply, val_main_v0_apply]
  refine congrArg₂ (· * ·) (congrArg _ (funext fun a => Fin.ext ?_)) (congrArg x4 (funext fun a => Fin.ext ?_))
  · match a with
    | ⟨0, _⟩ => rfl
    | ⟨1, _⟩ => rfl
    | ⟨2, _⟩ => rfl
  · have hc := c.isLt; have ho := o.isLt
    match a with
    | ⟨0, _⟩ => show 0 = 0; rfl
    | ⟨1, _⟩ => show (c.val * 64 + o.val) / 64 % 64 = c.val; omega
    | ⟨2, _⟩ => show (c.val * 64 + o.val) % 64 = o.val; omega

theorem proj1 (x0 : FVec Ideal S4x50000x64 .f32) (x1 x2 : IVec S800000 32) (x3 : FVec Ideal S800000 .f32) (x4 : FVec Ideal S4x64x64 .f32)
    (b : Fin 4) (n : Fin 50000) (o : Fin 64) :
    val_main_v20 (F := Ideal) x0 x1 x2 x3 x4 (ix3 b n o) = ChebSpec.proj (val_main_v17 (F := Ideal) x0 x1 x2 x3) x4 1 b n o := by
  rw [val_main_v20_apply]; unfold ChebSpec.proj
  refine Finset.sum_congr rfl fun c _ => ?_
  rw [val_main_v19_apply, val_main_v18_apply]
  refine congrArg₂ (· * ·) (congrArg _ (funext fun a => Fin.ext ?_)) (congrArg x4 (funext fun a => Fin.ext ?_))
  · match a with
    | ⟨0, _⟩ => rfl
    | ⟨1, _⟩ => rfl
    | ⟨2, _⟩ => rfl
  · have hc := c.isLt; have ho := o.isLt
    match a with
    | ⟨0, _⟩ => show 1 + 0 = 1; rfl
    | ⟨1, _⟩ => show (c.val * 64 + o.val) / 64 % 64 = c.val; omega
    | ⟨2, _⟩ => show (c.val * 64 + o.val) % 64 = o.val; omega

theorem proj2 (x0 : FVec Ideal S4x50000x64 .f32) (x1 x2 : IVec S800000 32) (x3 : FVec Ideal S800000 .f32) (x4 : FVec Ideal S4x64x64 .f32)
    (b : Fin 4) (n : Fin 50000) (o : Fin 64) :
    val_main_v42 (F := Ideal) x0 x1 x2 x3 x4 (ix3 b n o) = ChebSpec.proj (val_main_v39 (F := Ideal) x0 x1 x2 x3) x4 2 b n o := by
  rw [val_main_v42_apply]; unfold ChebSpec.proj
  refine Finset.sum_congr rfl fun c _ => ?_
  rw [val_main_v41_apply, val_main_v40_apply]
  refine congrArg₂ (· * ·) (congrArg _ (funext fun a => Fin.ext ?_)) (congrArg x4 (funext fun a => Fin.ext ?_))
  · match a with
    | ⟨0, _⟩ => rfl
    | ⟨1, _⟩ => rfl
    | ⟨2, _⟩ => rfl
  · have hc := c.isLt; have ho := o.isLt
    match a with
    | ⟨0, _⟩ => show 2 + 0 = 2; rfl
    | ⟨1, _⟩ => show (c.val * 64 + o.val) / 64 % 64 = c.val; omega
    | ⟨2, _⟩ => show (c.val * 64 + o.val) % 64 = o.val; omega

theorem proj3 (x0 : FVec Ideal S4x50000x64 .f32) (x1 x2 : IVec S800000 32) (x3 : FVec Ideal S800000 .f32) (x4 : FVec Ideal S4x64x64 .f32)
    (b : Fin 4) (n : Fin 50000) (o : Fin 64) :
    val_main_v64 (F := Ideal) x0 x1 x2 x3 x4 (ix3 b n o) = ChebSpec.proj (val_main_v61 (F := Ideal) x0 x1 x2 x3) x4 3 b n o := by
  rw [val_main_v64_apply]; unfold ChebSpec.proj
  refine Finset.sum_congr rfl fun c _ => ?_
  rw [val_main_v63_apply, val_main_v62_apply]
  refine congrArg₂ (· * ·) (congrArg _ (funext fun a => Fin.ext ?_)) (congrArg x4 (funext fun a => Fin.ext ?_))
  · match a with
    | ⟨0, _⟩ => rfl
    | ⟨1, _⟩ => rfl
    | ⟨2, _⟩ => rfl
  · have hc := c.isLt; have ho := o.isLt
    match a with
    | ⟨0, _⟩ => show 3 + 0 = 3; rfl
    | ⟨1, _⟩ => show (c.val * 64 + o.val) / 64 % 64 = c.val; omega
    | ⟨2, _⟩ => show (c.val * 64 + o.val) % 64 = o.val; omega

/-! ## The result -/

/-- The reference's result, as a function of the six arguments, is the filter function of the input, the program's
    three later terms, the weights and the bias. -/
theorem result_is_out (x0 : FVec Ideal S4x50000x64 .f32) (x1 x2 : IVec S800000 32) (x3 : FVec Ideal S800000 .f32)
    (x4 : FVec Ideal S4x64x64 .f32) (x5 : FVec Ideal S64 .f32) :
    val_main_v69 (F := Ideal) x0 x1 x2 x3 x4 x5
      = ChebSpec.out x0 (val_main_v17 (F := Ideal) x0 x1 x2 x3) (val_main_v39 (F := Ideal) x0 x1 x2 x3)
          (val_main_v61 (F := Ideal) x0 x1 x2 x3) x4 x5 := by
  funext i
  obtain ⟨b, n, o, rfl⟩ : ∃ (b : Fin 4) (n : Fin 50000) (o : Fin 64), i = ix3 b n o := ⟨i 0, i 1, i 2, eq_ix3 i⟩
  rw [ChebSpec.out_ix3, val_main_v69_apply, val_main_v68_apply, val_main_v65_apply, val_main_v43_apply, val_main_v21_apply,
    proj0 x0 x1 x2 x3 x4, proj1, proj2, proj3, val_main_v67_apply, val_main_v66_apply, val_main_call0_v0_apply, val_main_call0_cst_apply]
  unfold ChebSpec.outAt
  have hβ : x5 (idx_main_v66 (idx_main_v67 (ix3 b n o))) = x5 (ix1 o) :=
    congrArg x5 (funext fun a => Fin.ext (by match a with | ⟨0, _⟩ => rfl))
  rw [hβ]
  show max (_ + _) (Ideal.ofBits .f32 0x00000000#32) = _
  rw [Ideal.ofBits_zero_f32]
  rfl

end Cert.ReferenceIdeal.ChebRef

end
-- ==== Proof.lean ====
/-
  A Chebyshev graph filter of degree three: the kernel against the reference, over the extended reals.

  Both programs compute on the host, by the same lines, the Chebyshev terms T_0 = x, T_1 = L x, T_2 = 2 L T_1 - T_0,
  T_3 = 2 L T_2 - T_1 of the input under the sparse operator L given by the edge list (a gather, a scaling and a
  scatter-add). The reference then forms relu(((T_0 W_0 + T_1 W_1) + T_2 W_2) + T_3 W_3 + bias) with four
  `dot_general`s over the channel axis. The kernel's program stacks the four terms, merges batch and node into 200000
  rows and runs one Pallas kernel over fifty tiles of 4000 rows: per tile, four matrix-unit products (operands
  rounded to bf16, which is the identity over the extended reals) accumulated from zero, plus the bias, clamped at
  zero; a final reshape splits the rows back into batch and node.

  Over the extended reals both are the one function `ChebSpec.out` of (x, T_1, T_2, T_3, W, bias): the kernel's
  accumulator contributes `0 + a = a`, tiling and reshapes only rearrange indices, and the four products are added
  in the same grouping on both sides, so no distributive or cancellation law is used and finiteness of the inputs is
  never needed. The sparse operator is never opened: it is the same term on both sides.

  Frames. Neither kernel program writes an argument: the 69 host lines and the closing reshape write their own
  result buffers, the launch's input windows are never written back, and its one output array is no argument
  (ChebHost*, ChebBody*, ChebFrame*, at both float instances). The reference is a straight line of host operations.
  The idealization rewrote nothing, so `preserves` is trivial.
-/
import proofs.«177674_j1047972020814_1_alg».proof.Defs
import proofs.«177674_j1047972020814_1_alg».proof.Proof.Gen.Kernel
import proofs.«177674_j1047972020814_1_alg».proof.Proof.Gen.KernelIdeal
import proofs.«177674_j1047972020814_1_alg».proof.Proof.Gen.ReferenceIdeal
import proofs.«177674_j1047972020814_1_alg».proof.Proof.Gen.Pre_finite_inputs
import proofs.«177674_j1047972020814_1_alg».proof.Proof.Gen.ReferenceIdeal.Run
import proofs.«177674_j1047972020814_1_alg».proof.Proof.Gen.ReferenceIdeal.Read
import proofs.«177674_j1047972020814_1_alg».proof.Proof.ChebFrameB
import proofs.«177674_j1047972020814_1_alg».proof.Proof.ChebValue
import proofs.«177674_j1047972020814_1_alg».proof.Proof.ChebRef
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_bits : Cert.frame_Kernel := fun m ρ _ => Cert.Kernel.Cheb.args_kept (F := Bits) m ρ

/-- So does its reading over the extended reals. -/
theorem frame_ideal : Cert.frame_KernelIdeal := fun m ρ _ => Cert.KernelIdeal.Cheb.args_kept (F := Ideal) m ρ

/-- The reference is host operations only: its run, with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the six arguments both programs end at the filter function of the same data: the
    kernel's three later terms are the reference's stage functions at the kernel's arguments, and those are the
    reference's arguments. -/
theorem algebraic : Cert.algebraic_KernelIdeal_ReferenceIdeal := by
  intro m ρ m' ρ' _ hagree
  refine ⟨_, Cert.KernelIdeal.Cheb.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v69_eq, Cert.ReferenceIdeal.ChebRef.result_is_out,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_bits, frame_ideal, frame_ref, preserves, algebraic⟩

end Cert.Proof

end
